-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S8x2048x128 : Shape := ⟨3, ![8, 2048, 128]⟩
abbrev S8x2x128x1 : Shape := ⟨4, ![8, 2, 128, 1]⟩
abbrev S_ : Shape := ⟨0, ![]⟩
abbrev S8x2048 : Shape := ⟨2, ![8, 2048]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S8x2048x128 : S_.BroadcastsInDim S8x2048x128 (![] : Fin 0 → Fin S8x2048x128.rank)
  reducesTo_S8x2048x128_S_d0_1_2 : S8x2048x128.ReducesTo [0, 1, 2] S_
  bcast_S_S8x2x128x1 : S_.BroadcastsInDim S8x2x128x1 (![] : Fin 0 → Fin S8x2x128x1.rank)
  reducesTo_S8x2x128x1_S_d0_1_2_3 : S8x2x128x1.ReducesTo [0, 1, 2, 3] S_
  reducesTo_S8x2048x2048_S8x2048_d2 : S8x2048x2048.ReducesTo [2] S8x2048
  reducesTo_S8x2048_S_d0_1 : S8x2048.ReducesTo [0, 1] S_

variable [Facts]

def fn_part2 {F : FTy → Type} [FloatOps F] (main_arg0 : FVec F S8x2048x2048 .f32) (main_arg1 : FVec F S8x2048x2048 .f32) (main_v32 : IVec S_ 1) (main_cst_12 : FVec F S_ .f32) : IVec S_ 1 :=
  let main_v33 : FVec F S8x2048x2048 .f32 := broadcastInDim S8x2048x2048 ![] bcast_S_S8x2048x2048 main_cst_12
  let main_v34 : IVec S8x2048x2048 1 := cmpf .une main_arg0 main_v33
  let main_c_13 : IVec S_ 1 := constantI S_ 1 0#1
  let main_v35 : IVec S8x2048 1 := (fun x v => Host.reduce IntOp.ori x v reducesTo_S8x2048x2048_S8x2048_d2 h_S_) main_v34 main_c_13
  let main_c_14 : IVec S_ 1 := constantI S_ 1 1#1
  let main_v36 : IVec S_ 1 := (fun x v => Host.reduce IntOp.andi x v reducesTo_S8x2048_S_d0_1 h_S_) main_v35 main_c_14
  let main_v37 : IVec S_ 1 := andi main_v32 main_v36
  let main_cst_15 : FVec F S_ .f32 := constant S_ .f32 0x00000000#32
  let main_v38 : FVec F S8x2048x2048 .f32 := broadcastInDim S8x2048x2048 ![] bcast_S_S8x2048x2048 main_cst_15
  let main_v39 : IVec S8x2048x2048 1 := cmpf .une main_arg1 main_v38
  let main_c_16 : IVec S_ 1 := constantI S_ 1 0#1
  let main_v40 : IVec S8x2048 1 := (fun x v => Host.reduce IntOp.ori x v reducesTo_S8x2048x2048_S8x2048_d2 h_S_) main_v39 main_c_16
  let main_c_17 : IVec S_ 1 := constantI S_ 1 1#1
  let main_v41 : IVec S_ 1 := (fun x v => Host.reduce IntOp.andi x v reducesTo_S8x2048_S_d0_1 h_S_) main_v40 main_c_17
  let main_v42 : IVec S_ 1 := andi main_v37 main_v41
  main_v42

def fn_part1 {F : FTy → Type} [FloatOps F] (main_arg0 : FVec F S8x2048x2048 .f32) (main_arg1 : FVec F S8x2048x2048 .f32) (main_v13 : IVec S_ 1) (main_v16 : IVec S8x2x128x1 1) : IVec S_ 1 :=
  let main_c_5 : IVec S_ 1 := constantI S_ 1 1#1
  let main_v17 : IVec S_ 1 := (fun x v => Host.reduce IntOp.andi x v reducesTo_S8x2x128x1_S_d0_1_2_3 h_S_) main_v16 main_c_5
  let main_v18 : IVec S_ 1 := andi main_v13 main_v17
  let main_cst_6 : FVec F S_ .f32 := constant S_ .f32 0x00000000#32
  let main_v19 : FVec F S8x2048x2048 .f32 := broadcastInDim S8x2048x2048 ![] bcast_S_S8x2048x2048 main_cst_6
  let main_v20 : IVec S8x2048x2048 1 := cmpf .oeq main_arg0 main_v19
  let main_cst_7 : FVec F S_ .f32 := constant S_ .f32 0x3F800000#32
  let main_v21 : FVec F S8x2048x2048 .f32 := broadcastInDim S8x2048x2048 ![] bcast_S_S8x2048x2048 main_cst_7
  let main_v22 : IVec S8x2048x2048 1 := cmpf .oeq main_arg0 main_v21
  let main_v23 : IVec S8x2048x2048 1 := ori main_v20 main_v22
  let main_c_8 : IVec S_ 1 := constantI S_ 1 1#1
  let main_v24 : IVec S_ 1 := (fun x v => Host.reduce IntOp.andi x v reducesTo_S8x2048x2048_S_d0_1_2 h_S_) main_v23 main_c_8
  let main_v25 : IVec S_ 1 := andi main_v18 main_v24
  let main_cst_9 : FVec F S_ .f32 := constant S_ .f32 0x00000000#32
  let main_v26 : FVec F S8x2048x2048 .f32 := broadcastInDim S8x2048x2048 ![] bcast_S_S8x2048x2048 main_cst_9
  let main_v27 : IVec S8x2048x2048 1 := cmpf .oeq main_arg1 main_v26
  let main_cst_10 : FVec F S_ .f32 := constant S_ .f32 0x3F800000#32
  let main_v28 : FVec F S8x2048x2048 .f32 := broadcastInDim S8x2048x2048 ![] bcast_S_S8x2048x2048 main_cst_10
  let main_v29 : IVec S8x2048x2048 1 := cmpf .oeq main_arg1 main_v28
  let main_v30 : IVec S8x2048x2048 1 := ori main_v27 main_v29
  let main_c_11 : IVec S_ 1 := constantI S_ 1 1#1
  let main_v31 : IVec S_ 1 := (fun x v => Host.reduce IntOp.andi x v reducesTo_S8x2048x2048_S_d0_1_2 h_S_) main_v30 main_c_11
  let main_v32 : IVec S_ 1 := andi main_v25 main_v31
  let main_cst_12 : FVec F S_ .f32 := constant S_ .f32 0x00000000#32
  fn_part2 (F := F) main_arg0 main_arg1 main_v32 main_cst_12

def fn {F : FTy → Type} [FloatOps F] (main_arg0 : FVec F S8x2048x2048 .f32) (main_arg1 : FVec F S8x2048x2048 .f32) (main_arg2 : FVec F S8x2048x128 .f32) (main_arg3 : FVec F S8x2x128x1 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S8x2048x128 .f32 := Host.absf main_arg2
  let main_cst_2 : FVec F S_ .f32 := constant S_ .f32 0x7F800000#32
  let main_v10 : FVec F S8x2048x128 .f32 := broadcastInDim S8x2048x128 ![] bcast_S_S8x2048x128 main_cst_2
  let main_v11 : IVec S8x2048x128 1 := cmpf .olt main_v9 main_v10
  let main_c_3 : IVec S_ 1 := constantI S_ 1 1#1
  let main_v12 : IVec S_ 1 := (fun x v => Host.reduce IntOp.andi x v reducesTo_S8x2048x128_S_d0_1_2 h_S_) main_v11 main_c_3
  let main_v13 : IVec S_ 1 := andi main_v8 main_v12
  let main_v14 : FVec F S8x2x128x1 .f32 := Host.absf main_arg3
  let main_cst_4 : FVec F S_ .f32 := constant S_ .f32 0x7F800000#32
  let main_v15 : FVec F S8x2x128x1 .f32 := broadcastInDim S8x2x128x1 ![] bcast_S_S8x2x128x1 main_cst_4
  let main_v16 : IVec S8x2x128x1 1 := cmpf .olt main_v14 main_v15
  fn_part1 (F := F) main_arg0 main_arg1 main_v13 main_v16
-- ==== Kernel.lean ====
abbrev S8x2048x2048 : Shape := ⟨3, ![8, 2048, 2048]⟩
abbrev S8x2048x128 : Shape := ⟨3, ![8, 2048, 128]⟩
abbrev S8x2x128x1 : Shape := ⟨4, ![8, 2, 128, 1]⟩
abbrev S8x2x2048 : Shape := ⟨3, ![8, 2, 2048]⟩
abbrev S1x2048x128 : Shape := ⟨3, ![1, 2048, 128]⟩
abbrev S1x2x128x1 : Shape := ⟨4, ![1, 2, 128, 1]⟩
abbrev S1x2x2048 : Shape := ⟨3, ![1, 2, 2048]⟩
abbrev S2048x128 : Shape := ⟨2, ![2048, 128]⟩
abbrev S2x128 : Shape := ⟨2, ![2, 128]⟩
abbrev S2x2048 : Shape := ⟨2, ![2, 2048]⟩
abbrev S1x256x2048 : Shape := ⟨3, ![1, 256, 2048]⟩
abbrev S1x1x256 : Shape := ⟨3, ![1, 1, 256]⟩
abbrev S256 : Shape := ⟨1, ![256]⟩
abbrev S1x1x2048 : Shape := ⟨3, ![1, 1, 2048]⟩
abbrev S2048 : Shape := ⟨1, ![2048]⟩
abbrev S256x1 : Shape := ⟨2, ![256, 1]⟩
abbrev S1x2048 : Shape := ⟨2, ![1, 2048]⟩
abbrev S256x2048 : Shape := ⟨2, ![256, 2048]⟩

abbrev nBuf : Space → Nat
  | .hbm => 6
  | .vmem => 14
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S8x2048x128, .f32⟩
  | .hbm, ⟨3, _⟩ => ⟨S8x2x128x1, .f32⟩
  | .hbm, ⟨4, _⟩ => ⟨S8x2x2048, .f32⟩
  | .hbm, ⟨5, _⟩ => ⟨S8x2048x2048, .f32⟩
  | .local _ .vmem, ⟨0, _⟩ => ⟨S1x2048x128, .f32⟩
  | .local _ .vmem, ⟨1, _⟩ => ⟨S1x2048x128, .f32⟩
  | .local _ .vmem, ⟨2, _⟩ => ⟨S1x2x128x1, .f32⟩
  | .local _ .vmem, ⟨3, _⟩ => ⟨S1x2x128x1, .f32⟩
  | .local _ .vmem, ⟨4, _⟩ => ⟨S1x2x2048, .f32⟩
  | .local _ .vmem, ⟨5, _⟩ => ⟨S1x2x2048, .f32⟩
  | .local _ .vmem, ⟨6, _⟩ => ⟨S1x2x2048, .f32⟩
  | .local _ .vmem, ⟨7, _⟩ => ⟨S1x2x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def k1_off1 (i : grid1.Coords) : Fin 3 → Nat :=
  let c0 : Index := 0#32
  let c0_0 : Index := 0#32
  let arg1 : BitVec 32 := BitVec.ofNat 32 (i 1).val
  let c256_i32 : BitVec 32 := 256#32
  let v0 : BitVec 32 := Scalar.muli arg1 c256_i32
  let v1 : Index := Scalar.indexCast v0
  ![0, 0, v1.toNat]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x2x128x1_S1x2x128x1_0_0_0_0 : ∀ a, (![0, 0, 0, 0] : Fin 4 → Nat) a + S1x2x128x1.size a ≤ S1x2x128x1.size a
  h_S1x2x128x1 : 0 < S1x2x128x1.numel
  shapeCasts_S1x2x128x1_S2x128 : S1x2x128x1.ShapeCasts S2x128
  inb_S1x2x2048_S1x2x2048_0_0_0 : ∀ a, (![0, 0, 0] : Fin 3 → Nat) a + S1x2x2048.size a ≤ S1x2x2048.size a
  h_S1x2x2048 : 0 < S1x2x2048.numel
  shapeCasts_S1x2x2048_S2x2048 : S1x2x2048.ShapeCasts S2x2048
  shapeCasts_S2x2048_S1x2x2048 : S2x2048.ShapeCasts S1x2x2048
  h_S1x1x256 : 0 < S1x1x256.numel
  shapeCasts_S1x1x256_S256 : S1x1x256.ShapeCasts S256
  inb_S1x2x2048_S1x1x2048_0_1_0 : ∀ a, (![0, 1, 0] : Fin 3 → Nat) a + S1x1x2048.size a ≤ S1x2x2048.size a
  h_S1x1x2048 : 0 < S1x1x2048.numel
  shapeCasts_S1x1x2048_S2048 : S1x1x2048.ShapeCasts S2048
  shapeCasts_S256_S256x1 : S256.ShapeCasts S256x1
  shapeCasts_S2048_S1x2048 : S2048.ShapeCasts S1x2048
  broadcasts_S256x1_S256x2048 : S256x1.Broadcasts S256x2048
  broadcasts_S1x2048_S256x2048 : S1x2048.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S256 : S256x2048.Reduces [1] S256
  shapeCasts_S256x2048_S1x256x2048 : S256x2048.ShapeCasts S1x256x2048
  dot_S2x128_S2048x128_S2x2048_1_1_0_0_n_n_wf : DotDims.WF S2x128 S2048x128 S2x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S8x2048x128.size a
  hwx0_0 : ∀ i : grid0.Coords, EltTy.bits .f32 = 32 ∨ (Rect.block (s := S8x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x128x1.size a ≤ S8x2x128x1.size a
  hwx0_1 : ∀ i : grid0.Coords, EltTy.bits .f32 = 32 ∨ (Rect.block (s := S8x2x128x1) S1x2x128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x2048.size a ≤ S8x2x2048.size a
  hwx0_2 : ∀ i : grid0.Coords, EltTy.bits .f32 = 32 ∨ (Rect.block (s := S8x2x2048) S1x2x2048.size (cc0_transform_2 i) (hinb0_2 i)).WholeWords (EltTy.packing .f32)
  hrank1 : 0 < grid1.rank
  k1_off1_inb : ∀ i : grid1.Coords, ∀ a, (k1_off1 i) a + S1x1x256.size a ≤ S1x2x2048.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2x2048.size a ≤ S8x2x2048.size a
  hwx1_0 : ∀ i : grid1.Coords, EltTy.bits .f32 = 32 ∨ (Rect.block (s := S8x2x2048) S1x2x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x2048.size a ≤ S8x2048x2048.size a
  hwx1_1 : ∀ i : grid1.Coords, EltTy.bits .f32 = 32 ∨ (Rect.block (s := S8x2048x2048) S1x256x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x2048.size a ≤ S8x2048x2048.size a
  hwx1_2 : ∀ i : grid1.Coords, EltTy.bits .f32 = 32 ∨ (Rect.block (s := S8x2048x2048) S1x256x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x2048.size a ≤ S8x2048x2048.size a
  hwx1_3 : ∀ i : grid1.Coords, EltTy.bits .f32 = 32 ∨ (Rect.block (s := S8x2048x2048) S1x256x2048.size (cc1_transform_3 i) (hinb1_3 i)).WholeWords (EltTy.packing .f32)

variable [Facts₀]

def dot_S2x128_S2048x128_S2x2048_1_1_0_0_n_n : DotDims S2x128 S2048x128 S2x2048 where
  lhsContracting := [1]
  rhsContracting := [1]
  lhsNonContracting := [0]
  rhsNonContracting := [0]
  lhsBatch := []
  rhsBatch := []
  wf := dot_S2x128_S2048x128_S2x2048_1_1_0_0_n_n_wf

abbrev win0_0 : Pipeline.Window sig grid0 :=
  Pipeline.Window.ofSpec (Memref.whole main_arg2) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x2x128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1x2x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1x256x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x256x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x2048 : Shape := ⟨3, ![8, 2048, 2048]⟩
abbrev S8x2048x128 : Shape := ⟨3, ![8, 2048, 128]⟩
abbrev S8x2x128x1 : Shape := ⟨4, ![8, 2, 128, 1]⟩
abbrev S8x1x128x1 : Shape := ⟨4, ![8, 1, 128, 1]⟩
abbrev S8x128x1 : Shape := ⟨3, ![8, 128, 1]⟩
abbrev S8x2048x1 : Shape := ⟨3, ![8, 2048, 1]⟩
abbrev S8x1x2048 : Shape := ⟨3, ![8, 1, 2048]⟩
abbrev S_ : Shape := ⟨0, ![]⟩
abbrev S8x2048 : Shape := ⟨2, ![8, 2048]⟩

abbrev nBuf : Space → Nat
  | .hbm => 75
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S8x2048x128, .f32⟩
  | .hbm, ⟨3, _⟩ => ⟨S8x2x128x1, .f32⟩
  | .hbm, ⟨4, _⟩ => ⟨S8x1x128x1, .f32⟩
  | .hbm, ⟨5, _⟩ => ⟨S8x128x1, .f32⟩
  | .hbm, ⟨6, _⟩ => ⟨S8x2048x1, .f32⟩
  | .hbm, ⟨7, _⟩ => ⟨S8x1x128x1, .f32⟩
  | .hbm, ⟨8, _⟩ => ⟨S8x128x1, .f32⟩
  | .hbm, ⟨9, _⟩ => ⟨S8x2048x1, .f32⟩
  | .hbm, ⟨10, _⟩ => ⟨S8x1x2048, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S_, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048x2048, .f32⟩
  | .hbm, ⟨28, _⟩ => ⟨S8x2048x2048, .i1⟩
  | .hbm, ⟨29, _⟩ => ⟨S_, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S8x2048, .f32⟩
  | .hbm, ⟨42, _⟩ => ⟨S8x2048x1, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S_, .f32⟩
  | .hbm, ⟨47, _⟩ => ⟨S8x2048x2048, .f32⟩
  | .hbm, ⟨48, _⟩ => ⟨S8x2048x2048, .f32⟩
  | .hbm, ⟨49, _⟩ => ⟨S_, .f32⟩
  | .hbm, ⟨50, _⟩ => ⟨S8x2048x2048, .f32⟩
  | .hbm, ⟨51, _⟩ => ⟨S8x2048x2048, .i1⟩
  | .hbm, ⟨52, _⟩ => ⟨S_, .f32⟩
  | .hbm, ⟨53, _⟩ => ⟨S8x2048x2048, .f32⟩
  | .hbm, ⟨54, _⟩ => ⟨S8x2048x2048, .f32⟩
  | .hbm, ⟨55, _⟩ => ⟨S_, .f32⟩
  | .hbm, ⟨56, _⟩ => ⟨S8x2048, .f32⟩
  | .hbm, ⟨57, _⟩ => ⟨S8x2048x1, .f32⟩
  | .hbm, ⟨58, _⟩ => ⟨S8x2048x2048, .f32⟩
  | .hbm, ⟨59, _⟩ => ⟨S8x2048x2048, .f32⟩
  | .hbm, ⟨60, _⟩ => ⟨S8x2048x2048, .f32⟩
  | .hbm, ⟨61, _⟩ => ⟨S8x2048x2048, .f32⟩
  | .hbm, ⟨62, _⟩ => ⟨S8x2048x2048, .f32⟩
  | .hbm, ⟨63, _⟩ => ⟨S_, .f32⟩
  | .hbm, ⟨64, _⟩ => ⟨S8x2048, .f32⟩
  | .hbm, ⟨65, _⟩ => ⟨S8x2048x1, .f32⟩
  | .hbm, ⟨66, _⟩ => ⟨S8x2048x2048, .f32⟩
  | .hbm, ⟨67, _⟩ => ⟨S8x2048x2048, .f32⟩
  | .hbm, ⟨68, _⟩ => ⟨S_, .f32⟩
  | .hbm, ⟨69, _⟩ => ⟨S8x2048x2048, .f32⟩
  | .hbm, ⟨70, _⟩ => ⟨S8x2048x2048, .f32⟩
  | .hbm, ⟨71, _⟩ => ⟨S_, .f32⟩
  | .hbm, ⟨72, _⟩ => ⟨S8x2048x2048, .f32⟩
  | .hbm, ⟨73, _⟩ => ⟨S8x2048x2048, .f32⟩
  | .hbm, ⟨74, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_call0_v0 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_call1_v0 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]

class Facts₀ : Prop where
  slices_S8x2x128x1_S8x1x128x1_0_0_0_0 : S8x2x128x1.Slices ![0, 0, 0, 0] S8x1x128x1
  shapeCasts_S8x1x128x1_S8x128x1 : S8x1x128x1.ShapeCasts S8x128x1
  slices_S8x2x128x1_S8x1x128x1_0_1_0_0 : S8x2x128x1.Slices ![0, 1, 0, 0] S8x1x128x1
  transposes_S8x2048x1_S8x1x2048_0_2_1 : S8x2048x1.Transposes [0, 2, 1] S8x1x2048
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S8x2048_S8x2048x1_0_1 : S8x2048.BroadcastsInDim S8x2048x1 (![0, 1] : Fin 2 → Fin S8x2048x1.rank)
  dot_S8x2048x128_S8x128x1_S8x2048x1_2_1_1_2_0_0_wf : DotDims.WF S8x2048x128 S8x128x1 S8x2048x1 [2] [1] [1] [2] [0] [0]

variable [Facts₀]

def dot_S8x2048x128_S8x128x1_S8x2048x1_2_1_1_2_0_0 : DotDims S8x2048x128 S8x128x1 S8x2048x1 where
  lhsContracting := [2]
  rhsContracting := [1]
  lhsNonContracting := [1]
  rhsNonContracting := [2]
  lhsBatch := [0]
  rhsBatch := [0]
  wf := dot_S8x2048x128_S8x128x1_S8x2048x1_2_1_1_2_0_0_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

/-!
# Two-pattern graph attention: the two whole-array functions

Inputs: two patterns `L` (local) and `G` (long range) over [8, 2048, 2048], node features `X` over
[8, 2048, 128] and two score vectors per head `V` over [8, 2, 128, 1].

Per head `h` a node `n` has two scores, `f₁ n = ∑ d, X[h,n,d]·V[h,0,d]` and `f₂ n = ∑ d, X[h,n,d]·V[h,1,d]`; the
affinity of the pair `(i, j)` is `σ(f₁ i + f₂ j)` with `σ` the logistic function.

* `kerOut`: each pattern weights `exp σ` entry by entry, a row is scaled by one half over its sum, and the two
  scaled rows are added.
* `refOut`: each pattern selects the stored entries of a row (the others take a large negative filler), the row
  maximum is subtracted before the exponential, absent entries are zeroed, the row is divided by its sum, and the two
  rows are averaged.

For patterns with entries in `{0, 1}` and a stored entry in every row the two agree (`Admissible`).
-/

noncomputable section

namespace GraphAtt

open Idealize.ShloMosaic Idealize.ShloMosaic.ValueIdx

abbrev SM : Shape := ⟨3, ![8, 2048, 2048]⟩
abbrev SX : Shape := ⟨3, ![8, 2048, 128]⟩
abbrev SV : Shape := ⟨4, ![8, 2, 128, 1]⟩
abbrev SF : Shape := ⟨3, ![8, 2, 2048]⟩

/-- The float words the two programs carry: one half, one, the most negative finite f32, and minus infinity. -/
def cHalf : EReal := Ideal.ofBits .f32 0x3F000000#32
def cOne : EReal := Ideal.ofBits .f32 0x3F800000#32
def cMin : EReal := Ideal.ofBits .f32 0xFF7FFFFF#32
def cNegInf : EReal := Ideal.ofBits .f32 0xFF800000#32

/-! ## The kernel's function -/

/-- Score `a` (0 or 1) of node `n` in head `h`, the score vector as the left factor. -/
def score (X : SX.Idx → EReal) (V : SV.Idx → EReal) (h : Fin 8) (a : Fin 2) (n : Fin 2048) : EReal :=
  ∑ d : Fin 128, V (ix4 h a d 0) * X (ix3 h n d)

/-- The whole score table [8, 2, 2048] the first launch leaves. -/
def scoreArr (X : SX.Idx → EReal) (V : SV.Idx → EReal) : SF.Idx → EReal :=
  fun y => score X V (y 0) (y 1) (y 2)

/-- `exp (σ (f₁ i + f₂ j))` over a score table `f`. -/
def affF (f : SF.Idx → EReal) (h : Fin 8) (i j : Fin 2048) : EReal :=
  Ideal.exp (Ideal.logistic (f (ix3 h 0 i) + f (ix3 h 1 j)))

/-- One pattern's share of the output over a score table: the weighted row scaled by one half over its sum. -/
def kpartF (M : SM.Idx → EReal) (f : SF.Idx → EReal) (h : Fin 8) (i j : Fin 2048) : EReal :=
  (affF f h i j * M (ix3 h i j)) * Ideal.div cHalf (∑ k : Fin 2048, affF f h i k * M (ix3 h i k))

/-- The second launch's result as a function of the score table and the two patterns. -/
def attArr (f : SF.Idx → EReal) (L G : SM.Idx → EReal) : SM.Idx → EReal :=
  fun y => kpartF L f (y 0) (y 1) (y 2) + kpartF G f (y 0) (y 1) (y 2)

/-- The kernel's result: the second launch over the first launch's score table. -/
def kerOut (L G : SM.Idx → EReal) (X : SX.Idx → EReal) (V : SV.Idx → EReal) : SM.Idx → EReal :=
  attArr (scoreArr X V) L G

/-! ## The reference's function -/

/-- Score `a` of node `n` in head `h`, the features as the left factor. -/
def rscore (X : SX.Idx → EReal) (V : SV.Idx → EReal) (h : Fin 8) (a : Fin 2) (n : Fin 2048) : EReal :=
  ∑ d : Fin 128, X (ix3 h n d) * V (ix4 h a d 0)

/-- The logistic function spelt out: `1 / (1 + exp (-(f₁ i + f₂ j)))`. -/
def rsig (X : SX.Idx → EReal) (V : SV.Idx → EReal) (h : Fin 8) (i j : Fin 2048) : EReal :=
  Ideal.div cOne (cOne + Ideal.exp (-(rscore X V h 0 i + rscore X V h 1 j)))

/-- A row's logits: the pattern entry times the affinity, over the temperature one, where the entry is stored; the
    filler elsewhere. -/
def rlogit (M : SM.Idx → EReal) (X : SX.Idx → EReal) (V : SV.Idx → EReal) (h : Fin 8) (i j : Fin 2048) : EReal :=
  if M (ix3 h i j) ≠ 0 then Ideal.div (M (ix3 h i j) * rsig X V h i j) cOne else cMin

/-- The row maximum, folded from minus infinity. -/
def rmax (M : SM.Idx → EReal) (X : SX.Idx → EReal) (V : SV.Idx → EReal) (h : Fin 8) (i : Fin 2048) : EReal :=
  (Finset.univ : Finset (Fin 2048)).fold max cNegInf (fun k => rlogit M X V h i k)

/-- The shifted exponential, zeroed off the pattern. -/
def rnum (M : SM.Idx → EReal) (X : SX.Idx → EReal) (V : SV.Idx → EReal) (h : Fin 8) (i j : Fin 2048) : EReal :=
  Ideal.exp (rlogit M X V h i j - rmax M X V h i) * (if M (ix3 h i j) ≠ 0 then 1 else 0)

/-- The softmax over the stored entries of a row. -/
def rsoft (M : SM.Idx → EReal) (X : SX.Idx → EReal) (V : SV.Idx → EReal) (h : Fin 8) (i j : Fin 2048) : EReal :=
  Ideal.div (rnum M X V h i j) (∑ k : Fin 2048, rnum M X V h i k)

/-- The reference's result: one half of the long-range softmax plus one half of the local one. -/
def refOut (L G : SM.Idx → EReal) (X : SX.Idx → EReal) (V : SV.Idx → EReal) : SM.Idx → EReal :=
  fun y => cHalf * rsoft G X V (y 0) (y 1) (y 2) + cHalf * rsoft L X V (y 0) (y 1) (y 2)

/-! ## The inputs on which the two agree -/

/-- Finite features and score vectors; patterns with entries in `{0, 1}`; a stored entry in every row of each. -/
structure Admissible (L G : SM.Idx → EReal) (X : SX.Idx → EReal) (V : SV.Idx → EReal) : Prop where
  finX : ∀ i, ∃ r : ℝ, X i = (r : EReal)
  finV : ∀ i, ∃ r : ℝ, V i = (r : EReal)
  bitL : ∀ i, L i = 0 ∨ L i = 1
  bitG : ∀ i, G i = 0 ∨ G i = 1
  rowL : ∀ (h : Fin 8) (i : Fin 2048), ∃ j : Fin 2048, L (ix3 h i j) ≠ 0
  rowG : ∀ (h : Fin 8) (i : Fin 2048), ∃ j : Fin 2048, G (ix3 h i j) ≠ 0

end GraphAtt

end
-- ==== Proof.Algebra.lean ====
import proofs.«138415_g19713899889134_cont_8to1_1390_9_alg».proof.Proof.Spec
import Mathlib.Data.Finset.Fold

/-! The reference's stored-entry softmax average is the kernel's scaled sum, on admissible inputs. -/

noncomputable section

namespace GraphAtt

open Idealize.ShloMosaic Idealize.ShloMosaic.ValueIdx

/-! ## The four float words -/

/-- The word 0x3F800000 is the number one. -/
theorem cOne_eq : cOne = 1 := by
  unfold cOne; simp [Ideal.ofBits, Ideal.ieee, -EReal.coe_mul]; norm_num

/-- The word 0x3F000000 is one half. -/
theorem cHalf_eq : cHalf = ((1 / 2 : ℝ) : EReal) := by
  unfold cHalf; simp [Ideal.ofBits, Ideal.ieee, -EReal.coe_mul]; norm_num

/-- The word 0xFF800000 is minus infinity. -/
theorem cNegInf_eq : cNegInf = ⊥ := by
  unfold cNegInf; simp [Ideal.ofBits, Ideal.ieee]

/-- The word 0xFF7FFFFF is a finite number; which one never matters. -/
theorem cMin_real : ∃ c : ℝ, cMin = (c : EReal) := by
  unfold cMin; simp [Ideal.ofBits, Ideal.ieee, -EReal.coe_mul]
  exact ⟨_, rfl⟩

/-! ## Finite sums and folded maxima of reals inside the extended reals -/

/-- A finite sum of coerced reals is the coerced sum. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The maximum, folded from minus infinity, of finitely many reals over a nonempty index set is a real. -/
theorem fold_max_real {ι : Type*} (s : Finset ι) (f : ι → EReal) (hf : ∀ k, ∃ r : ℝ, f k = (r : EReal))
    (hs : s.Nonempty) : ∃ m : ℝ, s.fold max ⊥ f = (m : EReal) := by
  obtain ⟨k₀, hk₀⟩ := hs
  have hbot : s.fold max ⊥ f ≠ ⊥ := by
    obtain ⟨r, hr⟩ := hf k₀
    have h1 : f k₀ ≤ s.fold max ⊥ f := (Finset.le_fold_max _).mpr (Or.inr ⟨k₀, hk₀, le_refl _⟩)
    intro h0
    rw [h0, hr] at h1
    exact absurd h1 (not_le.mpr (EReal.bot_lt_coe r))
  have htop : s.fold max ⊥ f ≠ ⊤ := by
    have h1 : s.fold max ⊥ f < ⊤ := by
      refine (Finset.fold_max_lt _).mpr ⟨bot_lt_top, fun x _ => ?_⟩
      obtain ⟨r, hr⟩ := hf x
      rw [hr]; exact EReal.coe_lt_top r
    exact h1.ne
  exact ⟨_, (EReal.coe_toReal htop hbot).symm⟩

/-! ## One row of one pattern, over real data -/

/-- Division of a real by one. -/
theorem div_one_real (x : ℝ) : Ideal.div (x : EReal) 1 = (x : EReal) := by
  rw [← EReal.coe_one, Ideal.div_coe one_ne_zero, ← EReal.coe_mul]
  norm_num

/-- A row of real affinities s with a pattern M of zeros and ones that stores at least one entry, any real filler c and
    any real shift m: one half of the shifted, masked softmax is the weighted entry scaled by one half over the
    weighted sum. The shift cancels because the sum of the stored weights is positive. -/
theorem row_eq {ι : Type*} [Fintype ι] (s : ι → ℝ) (M : ι → EReal) (hM : ∀ k, M k = 0 ∨ M k = 1)
    (k₀ : ι) (hk₀ : M k₀ ≠ 0) (c m : ℝ) (j : ι) :
    ((1 / 2 : ℝ) : EReal) *
        Ideal.div
          (Ideal.exp ((if M j ≠ 0 then Ideal.div (M j * (s j : EReal)) 1 else (c : EReal)) - (m : EReal))
            * (if M j ≠ 0 then 1 else 0))
          (∑ k, Ideal.exp ((if M k ≠ 0 then Ideal.div (M k * (s k : EReal)) 1 else (c : EReal)) - (m : EReal))
            * (if M k ≠ 0 then 1 else 0))
      = (Ideal.exp (s j : EReal) * M j) * Ideal.div ((1 / 2 : ℝ) : EReal) (∑ k, Ideal.exp (s k : EReal) * M k) := by
  classical
  -- the real weight of an entry: the exponential where stored, zero elsewhere
  set w : ι → ℝ := fun k => Real.exp (s k) * (if M k ≠ 0 then 1 else 0) with hw
  have hnum : ∀ k, Ideal.exp ((if M k ≠ 0 then Ideal.div (M k * (s k : EReal)) 1 else (c : EReal)) - (m : EReal))
      * (if M k ≠ 0 then 1 else 0) = ((Real.exp (-m) * w k : ℝ) : EReal) := by
    intro k
    by_cases hk : M k ≠ 0
    · have h1 : M k = 1 := (hM k).resolve_left hk
      rw [if_pos hk, if_pos hk, h1, one_mul, div_one_real, ← EReal.coe_sub, Ideal.exp_coe, mul_one]
      congr 1
      simp only [hw, h1, ne_eq, one_ne_zero, not_false_eq_true, if_true, mul_one]
      rw [← Real.exp_add]; congr 1; ring
    · have h0 : M k = 0 := not_not.mp hk
      rw [if_neg hk, if_neg hk, mul_zero]
      simp only [hw, h0, ne_eq, not_true_eq_false, if_false, mul_zero, EReal.coe_zero]
  have hker : ∀ k, Ideal.exp (s k : EReal) * M k = ((w k : ℝ) : EReal) := by
    intro k
    rcases hM k with h0 | h1
    · simp only [hw, h0, ne_eq, not_true_eq_false, if_false, mul_zero, EReal.coe_zero]
    · simp only [hw, h1, ne_eq, one_ne_zero, not_false_eq_true, if_true, mul_one, Ideal.exp_coe]
  have hw0 : ∀ k, 0 ≤ w k := by
    intro k; simp only [hw]; split_ifs <;> positivity
  have hwk₀ : 0 < w k₀ := by
    simp only [hw, if_pos hk₀, mul_one]; exact Real.exp_pos _
  have hW : 0 < ∑ k, w k :=
    Finset.sum_pos' (fun k _ => hw0 k) ⟨k₀, Finset.mem_univ _, hwk₀⟩
  have hE : 0 < Real.exp (-m) := Real.exp_pos _
  have hsumL : ∑ k, ((Real.exp (-m) * w k : ℝ) : EReal) = ((Real.exp (-m) * ∑ k, w k : ℝ) : EReal) := by
    rw [coe_sum, Finset.mul_sum]
  simp only [hnum, hker]
  rw [hsumL, coe_sum, Ideal.div_coe (mul_pos hE hW).ne', Ideal.div_coe hW.ne']
  simp only [← EReal.coe_mul]
  congr 1
  field_simp

/-! ## The scores and the affinity on admissible inputs -/

/-- The two spellings of a score differ only in the order of the factors. -/
theorem score_eq_rscore (X : SX.Idx → EReal) (V : SV.Idx → EReal) (a : Fin 8) (b : Fin 2) (n : Fin 2048) :
    score X V a b n = rscore X V a b n := by
  unfold score rscore
  exact Finset.sum_congr rfl fun d _ => mul_comm _ _

/-- With finite features and score vectors a score is a real. -/
theorem rscore_real {L G : SM.Idx → EReal} {X : SX.Idx → EReal} {V : SV.Idx → EReal} (hA : Admissible L G X V)
    (a : Fin 8) (b : Fin 2) (n : Fin 2048) : ∃ r : ℝ, rscore X V a b n = (r : EReal) := by
  choose x hx using hA.finX
  choose v hv using hA.finV
  refine ⟨∑ d : Fin 128, x (ix3 a n d) * v (ix4 a b d 0), ?_⟩
  unfold rscore
  rw [← coe_sum]
  exact Finset.sum_congr rfl fun d _ => by rw [hx, hv, EReal.coe_mul]

/-- The affinity of a pair is one real, whether spelt out by the reference or read off the kernel's score table. -/
theorem sig_real {L G : SM.Idx → EReal} {X : SX.Idx → EReal} {V : SV.Idx → EReal} (hA : Admissible L G X V)
    (a : Fin 8) (i j : Fin 2048) :
    ∃ s : ℝ, rsig X V a i j = (s : EReal) ∧
      Ideal.logistic (scoreArr X V (ix3 a 0 i) + scoreArr X V (ix3 a 1 j)) = (s : EReal) := by
  obtain ⟨r₁, h₁⟩ := rscore_real hA a 0 i
  obtain ⟨r₂, h₂⟩ := rscore_real hA a 1 j
  refine ⟨(1 + Real.exp (-(r₁ + r₂)))⁻¹, ?_, ?_⟩
  · unfold rsig
    rw [cOne_eq, h₁, h₂, ← EReal.coe_add]
    exact Ideal.logistic_coe (r₁ + r₂)
  · have e₁ : scoreArr X V (ix3 a 0 i) = score X V a 0 i := rfl
    have e₂ : scoreArr X V (ix3 a 1 j) = score X V a 1 j := rfl
    rw [e₁, e₂, score_eq_rscore, score_eq_rscore, h₁, h₂, ← EReal.coe_add]
    exact Ideal.logistic_coe (r₁ + r₂)

/-! ## One pattern's half softmax is the kernel's share -/

theorem half_rsoft_eq_kpartF {L G : SM.Idx → EReal} {X : SX.Idx → EReal} {V : SV.Idx → EReal}
    (hA : Admissible L G X V) (M : SM.Idx → EReal) (hM : ∀ y, M y = 0 ∨ M y = 1)
    (hrow : ∀ (a : Fin 8) (i : Fin 2048), ∃ j : Fin 2048, M (ix3 a i j) ≠ 0) (a : Fin 8) (i j : Fin 2048) :
    cHalf * rsoft M X V a i j = kpartF M (scoreArr X V) a i j := by
  choose s hs using fun k => sig_real hA a i k
  have hs₁ : ∀ k, rsig X V a i k = (s k : EReal) := fun k => (hs k).1
  have hs₂ : ∀ k, Ideal.logistic (scoreArr X V (ix3 a 0 i) + scoreArr X V (ix3 a 1 k)) = (s k : EReal) :=
    fun k => (hs k).2
  obtain ⟨c, hc⟩ := cMin_real
  obtain ⟨k₀, hk₀⟩ := hrow a i
  -- every logit of the row is a real, hence so is the folded maximum
  have hlog : ∀ k, ∃ r : ℝ, rlogit M X V a i k = (r : EReal) := by
    intro k
    unfold rlogit
    by_cases hk : M (ix3 a i k) ≠ 0
    · have h1 : M (ix3 a i k) = 1 := (hM _).resolve_left hk
      rw [if_pos hk, h1, one_mul, hs₁, cOne_eq, div_one_real]
      exact ⟨_, rfl⟩
    · rw [if_neg hk]; exact ⟨c, hc⟩
  obtain ⟨m, hm⟩ : ∃ m : ℝ, rmax M X V a i = (m : EReal) := by
    unfold rmax
    rw [cNegInf_eq]
    exact fold_max_real _ _ hlog Finset.univ_nonempty
  have key := row_eq s (fun k => M (ix3 a i k)) (fun k => hM _) k₀ hk₀ c m j
  unfold rsoft rnum kpartF affF
  rw [hm]
  unfold rlogit
  simp only [hs₁, hs₂, cOne_eq, cHalf_eq, hc]
  exact key

theorem refOut_eq_kerOut {L G : SM.Idx → EReal} {X : SX.Idx → EReal} {V : SV.Idx → EReal}
    (h : Admissible L G X V) : refOut L G X V = kerOut L G X V := by
  funext y
  obtain ⟨a, i, j, rfl⟩ : ∃ (a : Fin 8) (i j : Fin 2048), y = ix3 a i j := ⟨y 0, y 1, y 2, eq_ix3 y⟩
  show cHalf * rsoft G X V a i j + cHalf * rsoft L X V a i j
      = kpartF L (scoreArr X V) a i j + kpartF G (scoreArr X V) a i j
  rw [half_rsoft_eq_kpartF h G h.bitG h.rowG, half_rsoft_eq_kpartF h L h.bitL h.rowL, add_comm]

end GraphAtt

end
-- ==== Proof.PreRead.lean ====
import proofs.«138415_g19713899889134_cont_8to1_1390_9_alg».proof.Pre_finite_inputs
import proofs.«138415_g19713899889134_cont_8to1_1390_9_alg».proof.Proof.Gen.Pre_finite_inputs
import proofs.«138415_g19713899889134_cont_8to1_1390_9_alg».proof.Proof.Spec
import Idealize.ShloMosaic.Lib.ReduceAll
import Idealize.ShloMosaic.Lib.IdealHost
import Idealize.ShloMosaic.Lib.StableHlo.Predicate

/-! What the printed precondition says of the four inputs. -/

noncomputable section

namespace GraphAtt

open Idealize.ShloMosaic Idealize.ShloMosaic.ValueIdx

/-! ## Words -/

/-- The scalar shape has one index. -/
instance : Subsingleton Cert.Pre_finite_inputs.S_.Idx := ⟨fun _ _ => funext fun d => d.elim0⟩

/-- The f32 word `0x7F800000` is plus infinity. -/
theorem ofBits_inf_f32 : Ideal.ofBits .f32 0x7F800000#32 = ⊤ := by simp [Ideal.ofBits, Ideal.ieee]

/-- A one-bit `or` is 1 exactly when one of its operands is. -/
theorem ori_eq_one {c d : BitVec 1} : IntOp.ori c d = 1#1 ↔ c = 1#1 ∨ d = 1#1 := by revert c d; decide

/-- A one-bit `and` of two arrays, read at an index. -/
theorem andi_apply_eq_one {s : Shape} (a b : IVec s 1) (i : s.Idx) : andi a b i = 1#1 ↔ a i = 1#1 ∧ b i = 1#1 :=
  IntOp.andi_eq_one

/-- An extended real whose absolute value is below plus infinity is a real. -/
theorem real_of_abs_lt_top (a : EReal) (h : max a (-a) < ⊤) : ∃ r : ℝ, a = (r : EReal) := by
  induction a using EReal.rec with
  | bot => simp at h
  | top => simp at h
  | coe r => exact ⟨r, rfl⟩

/-! ## One element of each printed test -/

section Elements
variable {s : Shape} (hb : Cert.Pre_finite_inputs.S_.BroadcastsInDim s (![] : Fin 0 → Fin s.rank))

/-- `|x| < +inf` at an index: the element is a real. -/
theorem real_of_olt (x : FVec Ideal s .f32) (i : s.Idx)
    (e : cmpf .olt (Host.absf x) (broadcastInDim s ![] hb (constant (F := Ideal) Cert.Pre_finite_inputs.S_ .f32 0x7F800000#32)) i = 1#1) :
    ∃ r : ℝ, x i = (r : EReal) := by
  change Ideal.cmp .olt (max (x i) (-(x i))) (Ideal.ofBits .f32 0x7F800000#32) = 1#1 at e
  rw [ofBits_inf_f32] at e
  simp only [Ideal.cmp, StableHlo.Predicate.ofBool_eq_one_iff, decide_eq_true_eq] at e
  exact real_of_abs_lt_top _ e

/-- `x == 0 or x == 1` at an index. -/
theorem bit_of_oeq (x : FVec Ideal s .f32) (i : s.Idx)
    (e : ori (cmpf .oeq x (broadcastInDim s ![] hb (constant (F := Ideal) Cert.Pre_finite_inputs.S_ .f32 0x00000000#32)))
      (cmpf .oeq x (broadcastInDim s ![] hb (constant (F := Ideal) Cert.Pre_finite_inputs.S_ .f32 0x3F800000#32))) i = 1#1) :
    x i = 0 ∨ x i = 1 := by
  change IntOp.ori (Ideal.cmp .oeq (x i) (Ideal.ofBits .f32 0x00000000#32))
    (Ideal.cmp .oeq (x i) (Ideal.ofBits .f32 0x3F800000#32)) = 1#1 at e
  rw [ori_eq_one, Ideal.ofBits_zero_f32, Ideal.ofBits_one_f32] at e
  simpa only [Ideal.cmp, StableHlo.Predicate.ofBool_eq_one_iff, decide_eq_true_eq] using e

/-- `x != 0` at an index. -/
theorem ne_of_une (x : FVec Ideal s .f32) (i : s.Idx)
    (e : cmpf .une x (broadcastInDim s ![] hb (constant (F := Ideal) Cert.Pre_finite_inputs.S_ .f32 0x00000000#32)) i = 1#1) :
    x i ≠ 0 := by
  change Ideal.cmp .une (x i) (Ideal.ofBits .f32 0x00000000#32) = 1#1 at e
  rw [Ideal.ofBits_zero_f32] at e
  simpa only [Ideal.cmp, StableHlo.Predicate.ofBool_eq_one_iff, decide_eq_true_eq] using e

end Elements

/-! ## A reduce by `or` that came out 1 -/

/-- A left fold by `or` over one-bit words that came out 1 started at 1 or met a 1. -/
theorem foldl_ori_eq_one {ι : Type} (f : ι → BitVec 1) :
    ∀ (l : List ι) (init : BitVec 1), l.foldl (fun r n => IntOp.ori r (f n)) init = 1#1 → init = 1#1 ∨ ∃ n ∈ l, f n = 1#1
  | [], _, h => Or.inl h
  | a :: l, init, h => by
    rcases foldl_ori_eq_one f l _ h with h1 | ⟨n, hn, hf⟩
    · rcases ori_eq_one.1 h1 with hi | ha
      · exact Or.inl hi
      · exact Or.inr ⟨a, List.mem_cons_self, ha⟩
    · exact Or.inr ⟨n, List.mem_cons_of_mem _ hn, hf⟩

/-- A `stablehlo.reduce` by `or` from 0 that is 1 at `j` had a 1 at some operand index that reduces into `j`. -/
theorem reduce_ori_eq_one {s t u : Shape} {axes : List (Fin s.rank)} (x : s.Idx → BitVec 1) (init : u.Idx → BitVec 1)
    (h : s.ReducesTo axes t) (hu : 0 < u.numel) (hinit : init (Shape.Idx.first hu) = 0#1) (j : t.Idx)
    (e : Host.reduce IntOp.ori x init h hu j = 1#1) : ∃ i : s.Idx, h.drop i = j ∧ x i = 1#1 := by
  rw [Host.reduce_eq_foldl, hinit] at e
  rcases foldl_ori_eq_one x _ _ e with h0 | ⟨i, hi, hx⟩
  · exact absurd h0 (by decide)
  · rw [List.mem_filter] at hi
    exact ⟨i, by simpa using hi.2, hx⟩

/-- "Every row has a 1": a reduce by `or` along the last axis from 0, then by `and` over the two axes left from 1, that
    came out 1 had a 1 in every row. -/
theorem row_of_reduce (P : IVec Cert.Pre_finite_inputs.S8x2048x2048 1)
    (h2 : Cert.Pre_finite_inputs.S8x2048x2048.ReducesTo [2] Cert.Pre_finite_inputs.S8x2048)
    (h01 : Cert.Pre_finite_inputs.S8x2048.ReducesTo [0, 1] Cert.Pre_finite_inputs.S_)
    (hu : 0 < Cert.Pre_finite_inputs.S_.numel)
    (e : Host.reduce IntOp.andi
        (Host.reduce IntOp.ori P (constantI Cert.Pre_finite_inputs.S_ 1 0#1) h2 hu)
        (constantI Cert.Pre_finite_inputs.S_ 1 1#1) h01 hu ix0 = 1#1)
    (hh : Fin 8) (ii : Fin 2048) : ∃ j : Fin 2048, P (ix3 hh ii j) = 1#1 := by
  have e1 := Host.reduce_andi_all _ _ h01 hu ix0 e (ix2 hh ii)
  obtain ⟨i, hd, hx⟩ := reduce_ori_eq_one P _ h2 hu rfl (ix2 hh ii) e1
  obtain ⟨a, b, c, rfl⟩ : ∃ (a : Fin 8) (b c : Fin 2048), i = ix3 a b c := ⟨i 0, i 1, i 2, eq_ix3 i⟩
  have ha : a = hh := Fin.ext (by
    have e0 := h2.drop_apply_val_of_eq (ix3 a b c) 0 0
    rw [hd] at e0
    exact e0.symm)
  have hb : b = ii := Fin.ext (by
    have e1 := h2.drop_apply_val_of_eq (ix3 a b c) 1 1
    rw [hd] at e1
    exact e1.symm)
  subst ha hb
  exact ⟨c, hx⟩

/-! ## The precondition read back -/

theorem admissible_of_pre [Cert.Pre_finite_inputs.Facts]
    (L G : FVec Ideal Cert.Pre_finite_inputs.S8x2048x2048 .f32) (X : FVec Ideal Cert.Pre_finite_inputs.S8x2048x128 .f32)
    (V : FVec Ideal Cert.Pre_finite_inputs.S8x2x128x1 .f32)
    (h : Cert.Pre_finite_inputs.fn (F := Ideal) L G X V = fun _ => 1#1) : Admissible L G X V := by
  have h0 := congrFun h ix0
  dsimp only [Cert.Pre_finite_inputs.fn, Cert.Pre_finite_inputs.fn_part1, Cert.Pre_finite_inputs.fn_part2] at h0
  simp only [andi_apply_eq_one] at h0
  obtain ⟨⟨⟨⟨⟨⟨⟨_, _⟩, hX⟩, hV⟩, hbL⟩, hbG⟩, hrL⟩, hrG⟩ := h0
  exact
    { finX := fun i => real_of_olt _ X i (Host.reduce_andi_all _ _ _ _ ix0 hX i)
      finV := fun i => real_of_olt _ V i (Host.reduce_andi_all _ _ _ _ ix0 hV i)
      bitL := fun i => bit_of_oeq _ L i (Host.reduce_andi_all _ _ _ _ ix0 hbL i)
      bitG := fun i => bit_of_oeq _ G i (Host.reduce_andi_all _ _ _ _ ix0 hbG i)
      rowL := fun hh ii => by
        obtain ⟨j, hj⟩ := row_of_reduce _ _ _ _ hrL hh ii
        exact ⟨j, ne_of_une _ L _ hj⟩
      rowG := fun hh ii => by
        obtain ⟨j, hj⟩ := row_of_reduce _ _ _ _ hrG hh ii
        exact ⟨j, ne_of_une _ G _ hj⟩ }

end GraphAtt

end
-- ==== Proof.RefRead.lean ====
import proofs.«138415_g19713899889134_cont_8to1_1390_9_alg».proof.Proof.Gen.ReferenceIdeal.Run
import proofs.«138415_g19713899889134_cont_8to1_1390_9_alg».proof.Proof.Gen.ReferenceIdeal.Read
import proofs.«138415_g19713899889134_cont_8to1_1390_9_alg».proof.Proof.Spec

/-! The reference's result, read one operation at a time, is `GraphAtt.refOut` of the four arguments. -/

noncomputable section

namespace GraphAtt

open Cert.ReferenceIdeal Idealize.ShloMosaic Idealize.ShloMosaic.ValueIdx

/-! ## The two scores of a node -/

section Stages

open Cert.ReferenceIdeal.Read

variable (x2 : FVec Ideal S8x2048x128 .f32) (x3 : FVec Ideal S8x2x128x1 .f32)

/-- The first product of the features with the score vectors, at node `n` of head `h`, is the score `f₁ n`. -/
theorem v2_at (h : Fin 8) (n : Fin 2048) (z : Fin 1) :
    val_main_v2 (F := Ideal) x2 x3 (ix3 h n z) = rscore x2 x3 h 0 n := by
  rw [val_main_v2_apply]
  unfold rscore
  refine Finset.sum_congr rfl fun k _ => ?_
  rw [val_main_v1_apply, val_main_v0_apply]
  have e1 : lidx_main_v2 (ix3 h n z) k = ix3 h n k :=
    funext fun a => Fin.ext (by match a with | ⟨0, _⟩ => rfl | ⟨1, _⟩ => rfl | ⟨2, _⟩ => rfl)
  have e2 : idx_main_v0 (idx_main_v1 (ridx_main_v2 (ix3 h n z) k)) = ix4 h (0 : Fin 2) k (0 : Fin 1) :=
    funext fun a => Fin.ext (by
      have hk : k.val < 128 := k.isLt
      have hz : z.val < 1 := z.isLt
      match a with
      | ⟨0, _⟩ => show ((h.val * 128 + k.val) * 1 + z.val) / 128 = h.val; omega
      | ⟨1, _⟩ => rfl
      | ⟨2, _⟩ => show ((h.val * 128 + k.val) * 1 + z.val) / 1 % 128 = k.val; omega
      | ⟨3, _⟩ => rfl)
  rw [e1, e2]

/-- The second product, at node `n` of head `h`, is the score `f₂ n`. -/
theorem v5_at (h : Fin 8) (n : Fin 2048) (z : Fin 1) :
    val_main_v5 (F := Ideal) x2 x3 (ix3 h n z) = rscore x2 x3 h 1 n := by
  rw [val_main_v5_apply]
  unfold rscore
  refine Finset.sum_congr rfl fun k _ => ?_
  rw [val_main_v4_apply, val_main_v3_apply]
  have e1 : lidx_main_v5 (ix3 h n z) k = ix3 h n k :=
    funext fun a => Fin.ext (by match a with | ⟨0, _⟩ => rfl | ⟨1, _⟩ => rfl | ⟨2, _⟩ => rfl)
  have e2 : idx_main_v3 (idx_main_v4 (ridx_main_v5 (ix3 h n z) k)) = ix4 h (1 : Fin 2) k (0 : Fin 1) :=
    funext fun a => Fin.ext (by
      have hk : k.val < 128 := k.isLt
      have hz : z.val < 1 := z.isLt
      match a with
      | ⟨0, _⟩ => show ((h.val * 128 + k.val) * 1 + z.val) / 128 = h.val; omega
      | ⟨1, _⟩ => rfl
      | ⟨2, _⟩ => show ((h.val * 128 + k.val) * 1 + z.val) / 1 % 128 = k.val; omega
      | ⟨3, _⟩ => rfl)
  rw [e1, e2]

/-! ## The affinity of a pair -/

/-- The quotient `1 / (1 + exp (-(f₁ i + f₂ j)))` at the pair `(p, q)` of head `h`. -/
theorem v15_at (h : Fin 8) (p q : Fin 2048) :
    val_main_v15 (F := Ideal) x2 x3 (ix3 h p q) = rsig x2 x3 h p q := by
  have e7 : idx_main_v7 (ix3 h p q) = ix3 h p (0 : Fin 1) :=
    funext fun a => Fin.ext (by match a with | ⟨0, _⟩ => rfl | ⟨1, _⟩ => rfl | ⟨2, _⟩ => rfl)
  have e8 : idx_main_v6 (idx_main_v8 (ix3 h p q)) = ix3 h q (0 : Fin 1) :=
    funext fun a => Fin.ext (by match a with | ⟨0, _⟩ => rfl | ⟨1, _⟩ => rfl | ⟨2, _⟩ => rfl)
  rw [val_main_v15_apply, val_main_v14_apply, val_main_cst_0_apply, val_main_v13_apply, val_main_v12_apply,
    val_main_cst_apply, val_main_v11_apply, val_main_v10_apply, val_main_v9_apply, val_main_v7_apply,
    val_main_v8_apply, val_main_v6_apply, e7, e8, v2_at, v5_at]
  rfl

end Stages

/-! ## Words: the test "x ≠ 0" as a condition and as a number -/

/-- A select on the bit "x ≠ 0" is the `if`. -/
theorem select_une_zero (x a b : EReal) :
    Scalar.select (Ideal.cmp .une x 0) a b = if x ≠ 0 then a else b := by
  unfold Scalar.select Ideal.cmp
  by_cases hx : x = 0
  · simp [hx]
  · simp [hx]

/-- The bit "x ≠ 0" read as a number is one where it holds and zero elsewhere. -/
theorem uitofp_une_zero (x : EReal) :
    ((((Ideal.cmp .une x 0).toNat : ℕ) : ℝ) : EReal) = if x ≠ 0 then 1 else 0 := by
  unfold Ideal.cmp
  by_cases hx : x = 0
  · simp [hx]
  · simp [hx]

/-- A reduced index `(h, p)` with the coordinate `k` put back on the last axis is `(h, p, k)`. -/
theorem lift_d2 (hr : S8x2048x2048.Reduces [2] S8x2048) (h : Fin 8) (p : Fin 2048) (k : Fin (S8x2048x2048.size 2)) :
    hr.lift (ix2 h p) k = ix3 h p (⟨k.val, k.isLt⟩ : Fin 2048) := by
  funext c; apply Fin.ext
  fin_cases c <;> rfl

/-! ## One pattern's softmax -/

section Pattern

open Cert.ReferenceIdeal.Read

variable (x : FVec Ideal S8x2048x2048 .f32) (x2 : FVec Ideal S8x2048x128 .f32) (x3 : FVec Ideal S8x2x128x1 .f32)

/-- The selected logits at `(h, p, q)`. -/
theorem v21_at (h : Fin 8) (p q : Fin 2048) :
    val_main_v21 (F := Ideal) x x2 x3 (ix3 h p q) = rlogit x x2 x3 h p q := by
  rw [val_main_v21_apply, val_main_v20_apply, val_main_v19_apply, val_main_cst_2_apply, val_main_v18_apply,
    val_main_v17_apply, val_main_cst_1_apply, val_main_v16_apply, val_main_call0_v0_apply, val_main_cst_3_apply, v15_at]
  show Scalar.select (Ideal.cmp .une (x (ix3 h p q)) (Ideal.ofBits .f32 0x00000000#32))
    (Ideal.div (x (ix3 h p q) * rsig x2 x3 h p q) cOne) cMin = _
  rw [Ideal.ofBits_zero_f32, select_une_zero]
  rfl

/-- The row maximum at `(h, p)`. -/
theorem v22_at (h : Fin 8) (p : Fin 2048) :
    val_main_v22 (F := Ideal) x x2 x3 (ix2 h p) = rmax x x2 x3 h p := by
  have hr : S8x2048x2048.Reduces [2] S8x2048 := by decide
  unfold val_main_v22
  rw [Host.reduce_eq_fold_single FloatOps.maximumf _ _ Gen.reducesTo_S8x2048x2048_S8x2048_d2 hr Gen.h_S_]
  have hf : (val_main_v21 (F := Ideal) x x2 x3 ∘ hr.lift (ix2 h p)) = fun k : Fin 2048 => rlogit x x2 x3 h p k :=
    funext fun k => (congrArg (val_main_v21 (F := Ideal) x x2 x3) (lift_d2 hr h p k)).trans (v21_at x x2 x3 h p _)
  exact congrArg (fun f => Finset.fold max (Ideal.ofBits .f32 0xFF800000#32) f (Finset.univ : Finset (Fin 2048))) hf

/-- The shifted exponential, zeroed off the pattern, at `(h, p, q)`. -/
theorem v28_at (h : Fin 8) (p q : Fin 2048) :
    val_main_v28 (F := Ideal) x x2 x3 (ix3 h p q) = rnum x x2 x3 h p q := by
  have e : idx_main_v23 (idx_main_v24 (ix3 h p q)) = ix2 h p :=
    funext fun a => Fin.ext (by match a with | ⟨0, _⟩ => rfl | ⟨1, _⟩ => rfl)
  rw [val_main_v28_apply, val_main_v26_apply, val_main_v25_apply, val_main_v24_apply, val_main_v23_apply, e,
    val_main_v27_apply, val_main_v20_apply, val_main_v19_apply, val_main_cst_2_apply, v21_at, v22_at]
  show Ideal.exp (rlogit x x2 x3 h p q - rmax x x2 x3 h p)
    * ((((Ideal.cmp .une (x (ix3 h p q)) (Ideal.ofBits .f32 0x00000000#32)).toNat : ℕ) : ℝ) : EReal) = _
  rw [Ideal.ofBits_zero_f32, uitofp_une_zero]
  rfl

/-- The row sum at `(h, p)`. -/
theorem v29_at (h : Fin 8) (p : Fin 2048) :
    val_main_v29 (F := Ideal) x x2 x3 (ix2 h p) = ∑ k : Fin 2048, rnum x x2 x3 h p k := by
  have e : ∀ k : Fin 2048, idx_main_v29 (ix2 h p) k = ix3 h p k := fun k =>
    funext fun a => Fin.ext (by match a with | ⟨0, _⟩ => rfl | ⟨1, _⟩ => rfl | ⟨2, _⟩ => rfl)
  rw [val_main_v29_apply, val_main_cst_5_apply]
  simp only [e, v28_at]
  show Ideal.ofBits .f32 0x00000000#32 + _ = _
  rw [Ideal.ofBits_zero_f32, zero_add]

/-- The softmax over the stored entries at `(h, p, q)`. -/
theorem v32_at (h : Fin 8) (p q : Fin 2048) :
    val_main_v32 (F := Ideal) x x2 x3 (ix3 h p q) = rsoft x x2 x3 h p q := by
  have e : idx_main_v30 (idx_main_v31 (ix3 h p q)) = ix2 h p :=
    funext fun a => Fin.ext (by match a with | ⟨0, _⟩ => rfl | ⟨1, _⟩ => rfl)
  rw [val_main_v32_apply, val_main_v31_apply, val_main_v30_apply, e, v28_at, v29_at]
  rfl

/-- The second pattern goes through the same operations as the first. -/
theorem v49_eq : val_main_v49 (F := Ideal) x x2 x3 = val_main_v32 (F := Ideal) x x2 x3 := rfl

end Pattern

theorem ref_val_eq (x0 x1 : FVec Ideal S8x2048x2048 .f32) (x2 : FVec Ideal S8x2048x128 .f32) (x3 : FVec Ideal S8x2x128x1 .f32) :
    Cert.ReferenceIdeal.Read.val_main_v54 (F := Ideal) x0 x1 x2 x3 = refOut x0 x1 x2 x3 := by
  funext i
  obtain ⟨h, p, q, rfl⟩ : ∃ (h : Fin 8) (p q : Fin 2048), i = ix3 h p q := ⟨i 0, i 1, i 2, eq_ix3 i⟩
  rw [Read.val_main_v54_apply, Read.val_main_v51_apply, Read.val_main_v50_apply, Read.val_main_cst_11_apply,
    Read.val_main_v53_apply, Read.val_main_v52_apply, Read.val_main_cst_12_apply, v49_eq, v32_at, v32_at]
  rfl

end GraphAtt

end
-- ==== Proof.Scores.lean ====
import proofs.«138415_g19713899889134_cont_8to1_1390_9_alg».proof.Proof.Gen.KernelIdeal.Frame
import proofs.«138415_g19713899889134_cont_8to1_1390_9_alg».proof.Proof.Spec
import Idealize.ShloMosaic.Lib.Pipeline.Value
import Idealize.ShloMosaic.Lib.ValueIdx
import Idealize.ShloMosaic.Lib.ValueLayout
import Idealize.ShloMosaic.PureOps.Ideal.Laws

/-! The first launch: the score table it leaves is `GraphAtt.scoreArr` of the features and score vectors. -/

set_option maxRecDepth 16384

noncomputable section

namespace Cert.KernelIdeal.ScoresValue

open Cert.KernelIdeal Cert.KernelIdeal.Gen Idealize.ShloMosaic Idealize.ShloMosaic.TcCoe Idealize.ShloMosaic.ValueIdx Idealize.SL.Sem

/-! ## The payload at an index -/

/-- The feature block `[1, 2048, 128]` viewed `[2048, 128]` reads `(0, n, d)` at `(n, d)`. -/
theorem cast_feat (x0 : Vec Ideal S1x2048x128 .f32) (n : Fin 2048) (d : Fin 128) :
    shapeCast S2048x128 x0 shapeCasts_S1x2048x128_S2048x128 (ix2 n d) = x0 (ix3 (0 : Fin 1) n d) :=
  shapeCast_1ab_ab_apply x0 shapeCasts_S1x2048x128_S2048x128 n d

/-- The score-vector block `[1, 2, 128, 1]` viewed `[2, 128]` reads `(0, a, d, 0)` at `(a, d)`: both sit at row-major
    position `a * 128 + d`. -/
theorem cast_vec (x1 : Vec Ideal S1x2x128x1 .f32) (a : Fin 2) (d : Fin 128) :
    shapeCast S2x128 x1 shapeCasts_S1x2x128x1_S2x128 (ix2 a d) = x1 (ix4 (0 : Fin 1) a d (0 : Fin 1)) :=
  shapeCast_apply x1 shapeCasts_S1x2x128x1_S2x128 _ _ (by
    rw [Shape.rowMajor_val_four, Shape.rowMajor_val_two]
    show ((0 * 2 + a.val) * 128 + d.val) * 1 + 0 = a.val * 128 + d.val
    omega)

/-- The product `[2, 2048]` stored as a `[1, 2, 2048]` block reads `(a, n)` at `(0, a, n)`. -/
theorem cast_out (v : FVec Ideal S2x2048 .f32) (a : Fin 2) (n : Fin 2048) :
    shapeCast S1x2x2048 v shapeCasts_S2x2048_S1x2x2048 (ix3 (0 : Fin 1) a n) = v (ix2 a n) :=
  shapeCast_ab_1ab_apply v shapeCasts_S2x2048_S1x2x2048 0 a n

/-! The product's operand indices, axis by axis: the left factor `[2, 128]` keeps the result's row and contracts its
    second axis; the right factor `[2048, 128]` keeps the result's column and contracts its second axis. -/

theorem lhs_score_0 (i : S2x2048.Idx) (q : dot_S2x128_S2048x128_S2x2048_1_1_0_0_n_n.contr.Idx) :
    (dot_S2x128_S2048x128_S2x2048_1_1_0_0_n_n.lhsIdx i q 0).val = (i 0).val := by
  unfold DotDims.lhsIdx
  rw [dif_neg (show ¬(0 : Fin S2x128.rank) ∈ dot_S2x128_S2048x128_S2x2048_1_1_0_0_n_n.lhsBatch by decide), dif_pos (show (0 : Fin S2x128.rank) ∈ dot_S2x128_S2048x128_S2x2048_1_1_0_0_n_n.lhsNonContracting by decide)]
  rfl
theorem lhs_score_1 (i : S2x2048.Idx) (q : dot_S2x128_S2048x128_S2x2048_1_1_0_0_n_n.contr.Idx) :
    (dot_S2x128_S2048x128_S2x2048_1_1_0_0_n_n.lhsIdx i q 1).val = (q ⟨0, by decide⟩).val :=
  dot_S2x128_S2048x128_S2x2048_1_1_0_0_n_n.lhsIdx_val_of_single rfl i q
theorem rhs_score_0 (i : S2x2048.Idx) (q : dot_S2x128_S2048x128_S2x2048_1_1_0_0_n_n.contr.Idx) :
    (dot_S2x128_S2048x128_S2x2048_1_1_0_0_n_n.rhsIdx i q 0).val = (i 1).val := by
  unfold DotDims.rhsIdx
  rw [dif_neg (show ¬(0 : Fin S2048x128.rank) ∈ dot_S2x128_S2048x128_S2x2048_1_1_0_0_n_n.rhsBatch by decide), dif_pos (show (0 : Fin S2048x128.rank) ∈ dot_S2x128_S2048x128_S2x2048_1_1_0_0_n_n.rhsNonContracting by decide)]
  rfl
theorem rhs_score_1 (i : S2x2048.Idx) (q : dot_S2x128_S2048x128_S2x2048_1_1_0_0_n_n.contr.Idx) :
    (dot_S2x128_S2048x128_S2x2048_1_1_0_0_n_n.rhsIdx i q 1).val = (q ⟨0, by decide⟩).val :=
  dot_S2x128_S2048x128_S2x2048_1_1_0_0_n_n.rhsIdx_val_of_single rfl i q

/-- The product into the zero accumulator, read at `(a, n)`: the sum over the contracted axis of the left factor's row
    `a` times the right factor's row `n`. -/
theorem matmul_score_apply (l : FVec Ideal S2x128 .f32) (r : FVec Ideal S2048x128 .f32) (a : Fin 2) (n : Fin 2048) :
    matmul dot_S2x128_S2048x128_S2x2048_1_1_0_0_n_n none l r (constant (F := Ideal) S2x2048 .f32 0x00000000#32) (ix2 a n)
      = ∑ d : Fin 128, l (ix2 a d) * r (ix2 n d) := by
  simp only [matmul]
  rw [Ideal.matmul_constant_zero_apply, ← Equiv.sum_comp (contrEquiv1 dot_S2x128_S2048x128_S2x2048_1_1_0_0_n_n 128 rfl rfl).symm]
  refine Finset.sum_congr rfl fun k _ => ?_
  have hk := contrEquiv1_symm_val dot_S2x128_S2048x128_S2x2048_1_1_0_0_n_n 128 rfl rfl k
  have el : dot_S2x128_S2048x128_S2x2048_1_1_0_0_n_n.lhsIdx (ix2 a n) ((contrEquiv1 dot_S2x128_S2048x128_S2x2048_1_1_0_0_n_n 128 rfl rfl).symm k) = ix2 a k := funext fun b => Fin.ext (by
    match b with
    | ⟨0, _⟩ => exact lhs_score_0 _ _
    | ⟨1, _⟩ => exact (lhs_score_1 _ _).trans hk)
  have er : dot_S2x128_S2048x128_S2x2048_1_1_0_0_n_n.rhsIdx (ix2 a n) ((contrEquiv1 dot_S2x128_S2048x128_S2x2048_1_1_0_0_n_n 128 rfl rfl).symm k) = ix2 n k := funext fun b => Fin.ext (by
    match b with
    | ⟨0, _⟩ => exact rhs_score_0 _ _
    | ⟨1, _⟩ => exact (rhs_score_1 _ _).trans hk)
  rw [el, er]

/-- The body's stored value at `(0, a, n)`: score `a` of node `n`, the score vector as the left factor. -/
theorem pay_apply (x0 : Vec Ideal S1x2048x128 .f32) (x1 : Vec Ideal S1x2x128x1 .f32) (a : Fin 2) (n : Fin 2048) :
    (k0_pay1 (F := Ideal)) x0 x1 (ix3 (0 : Fin 1) a n) = ∑ d : Fin 128, x1 (ix4 (0 : Fin 1) a d (0 : Fin 1)) * x0 (ix3 (0 : Fin 1) n d) := by
  unfold k0_pay1
  refine (cast_out _ a n).trans ?_
  refine (matmul_score_apply _ _ a n).trans ?_
  refine Finset.sum_congr rfl fun d _ => ?_
  rw [cast_vec, cast_feat]

/-! ## From blocks to the array -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The stored block against the whole-array function: when the feature block is head `h`'s slab of `X` and the
    score-vector block is head `h`'s slab of `W`, the stored block at `j` is the score table at the index with head `h`
    and `j`'s other two coordinates. -/
theorem pay_eq_scoreArr (x0 : Vec Ideal S1x2048x128 .f32) (x1 : Vec Ideal S1x2x128x1 .f32)
    (X : GraphAtt.SX.Idx → EReal) (W : GraphAtt.SV.Idx → EReal) (h : Fin 8)
    (hx0 : ∀ (n : Fin 2048) (d : Fin 128), x0 (ix3 (0 : Fin 1) n d) = X (ix3 h n d))
    (hx1 : ∀ (a : Fin 2) (d : Fin 128), x1 (ix4 (0 : Fin 1) a d (0 : Fin 1)) = W (ix4 h a d (0 : Fin 1)))
    (j : S1x2x2048.Idx) (i : S8x2x2048.Idx)
    (hi0 : (i 0).val = h.val) (hi1 : (i 1).val = (j 1).val) (hi2 : (i 2).val = (j 2).val) :
    (k0_pay1 (F := Ideal)) x0 x1 j = GraphAtt.scoreArr X W i := by
  obtain ⟨u, a, n, rfl⟩ : ∃ (u : Fin 1) (a : Fin 2) (n : Fin 2048), j = ix3 u a n := ⟨j 0, j 1, j 2, eq_ix3 j⟩
  obtain rfl : u = 0 := Subsingleton.elim _ _
  obtain rfl : i = ix3 h a n := funext fun b => Fin.ext (by
    match b with
    | ⟨0, _⟩ => exact hi0
    | ⟨1, _⟩ => exact hi1
    | ⟨2, _⟩ => exact hi2)
  refine (pay_apply x0 x1 a n).trans ?_
  show _ = ∑ d : Fin 128, W (ix4 h a d 0) * X (ix3 h n d)
  exact Finset.sum_congr rfl fun d _ => by rw [hx0, hx1]

/-- The printed index maps, decided over the grid: point `t` takes block `t` along the head axis and block `0` along the
    others, in each of the three windows. -/
theorem idx_facts : ∀ t : Fin cfg0.N,
    win0_0.index t (0 : Fin 3) = t.val ∧ win0_0.index t (1 : Fin 3) = 0 ∧ win0_0.index t (2 : Fin 3) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 3) = t.val ∧ win0_2.index t (1 : Fin 3) = 0 ∧ win0_2.index t (2 : Fin 3) = 0 :=
  (by decide +kernel : ∀ t : Fin grid0.N, _)

variable (V : (c : Dev nD) → (b : Ref sig .tc) → Buf (Elt Ideal) ((c : Thread nD τ).loc b))

/-- The feature window's block at point `t` is head `t`'s slab of the feature array. -/
theorem feat_blk (c : Dev nD) (t : Fin cfg0.N) (n : Fin 2048) (d : Fin 128) :
    (iblk0 (F := Ideal) V c 0 t : Vec Ideal S1x2048x128 .f32) (ix3 (0 : Fin 1) n d)
      = (V c main_arg2 : S8x2048x128.Idx → EReal) (ix3 (Fin.cast N_0 t) n d) := by
  obtain ⟨e0, e1, e2, -⟩ := idx_facts t
  unfold iblk0
  rw [View.read_apply]
  show V c main_arg2 _ = V c main_arg2 _
  congr 1
  funext a
  apply Fin.ext
  match a with
  | ⟨0, _⟩ => show win0_0.index t (0 : Fin 3) * 1 + 1 * 0 = t.val; omega
  | ⟨1, _⟩ => show win0_0.index t (1 : Fin 3) * 2048 + 1 * n.val = n.val; omega
  | ⟨2, _⟩ => show win0_0.index t (2 : Fin 3) * 128 + 1 * d.val = d.val; omega

/-- The score-vector window's block at point `t` is head `t`'s slab of the score-vector array. -/
theorem vec_blk (c : Dev nD) (t : Fin cfg0.N) (a : Fin 2) (d : Fin 128) :
    (iblk0 (F := Ideal) V c 1 t : Vec Ideal S1x2x128x1 .f32) (ix4 (0 : Fin 1) a d (0 : Fin 1))
      = (V c main_arg3 : S8x2x128x1.Idx → EReal) (ix4 (Fin.cast N_0 t) a d (0 : Fin 1)) := by
  obtain ⟨-, -, -, e0, e1, e2, e3, -⟩ := idx_facts t
  unfold iblk0
  rw [View.read_apply]
  show V c main_arg3 _ = V c main_arg3 _
  congr 1
  funext b
  apply Fin.ext
  match b with
  | ⟨0, _⟩ => show win0_1.index t (0 : Fin 4) * 1 + 1 * 0 = t.val; omega
  | ⟨1, _⟩ => show win0_1.index t (1 : Fin 4) * 2 + 1 * a.val = a.val; omega
  | ⟨2, _⟩ => show win0_1.index t (2 : Fin 4) * 128 + 1 * d.val = d.val; omega
  | ⟨3, _⟩ => show win0_1.index t (3 : Fin 4) * 1 + 1 * 0 = 0; omega

/-- What point `t` writes back is block `t` of the score table. -/
theorem flushed_eq (c : Dev nD) (t : Fin cfg0.N) :
    (dat0 (F := Ideal) V c).flushed 2 t
      = ((cfg0.win 2).blk t).view.read (Elt Ideal) (GraphAtt.scoreArr (V c main_arg2) (V c main_arg3)) := by
  show (cfg0.win 2).cut (grid0.coords t) ((dat0 V c).after 2 t) = _
  rw [after0_2]
  unfold out0_2
  rw [View.canon_unit_zero hz3]
  simp only [View.ld_unit_zero (S := S1x2048x128) hz3, View.ld_unit_zero (S := S1x2x128x1) hz4]
  obtain ⟨-, -, -, -, -, -, -, e0, e1, e2⟩ := idx_facts t
  funext j
  show (k0_pay1 (F := Ideal)) (iblk0 V c 0 t) (iblk0 V c 1 t) j
    = GraphAtt.scoreArr (V c main_arg2) (V c main_arg3) (((cfg0.win 2).blk t).view.emb j)
  refine pay_eq_scoreArr (iblk0 V c 0 t) (iblk0 V c 1 t) (V c main_arg2) (V c main_arg3) (Fin.cast N_0 t)
    (feat_blk V c t) (vec_blk V c t) j (((cfg0.win 2).blk t).view.emb j) ?_ ?_ ?_
  · show win0_2.index t (0 : Fin 3) * 1 + 1 * (j 0).val = t.val
    have hj : (j 0).val < 1 := (j 0).isLt
    omega
  · show win0_2.index t (1 : Fin 3) * 2 + 1 * (j 1).val = (j 1).val
    omega
  · show win0_2.index t (2 : Fin 3) * 2048 + 1 * (j 2).val = (j 2).val
    omega

/-- An index of the score table is in point `t`'s block iff each coordinate is in the block's range on its axis. -/
theorem mem_blk (t : Fin cfg0.N) (i : S8x2x2048.Idx) :
    i ∈ ((cfg0.win 2).blk t).view.set ↔ ∀ a : Fin 3, win0_2.index t a * S1x2x2048.size a ≤ (i a).val ∧ (i a).val < win0_2.index t a * S1x2x2048.size a + S1x2x2048.size a := by
  show i ∈ ((View.whole main_v0).slice (win0_2.rect t)).set ↔ _
  rw [View.set_slice_whole, Rect.mem_set_unit]
  exact Iff.rfl

/-- Every index of the score table is in the block of the point of its head. -/
theorem cover (i : S8x2x2048.Idx) :
    ∃ t : Fin cfg0.N, (cfg0.win 2).flush t = true ∧ i ∈ ((cfg0.win 2).blk t).view.set := by
  have hi0 : (i 0).val < 8 := (i 0).isLt
  have hi1 : (i 1).val < 2 := (i 1).isLt
  have hi2 : (i 2).val < 2048 := (i 2).isLt
  refine ⟨Fin.cast N_0.symm (i 0), flush0_2 _, ?_⟩
  obtain ⟨-, -, -, -, -, -, -, e0, e1, e2⟩ := idx_facts (Fin.cast N_0.symm (i 0))
  have e0' : win0_2.index (Fin.cast N_0.symm (i 0)) (0 : Fin 3) = (i 0).val := e0
  rw [mem_blk]
  intro a
  match a with
  | ⟨0, _⟩ => show win0_2.index (Fin.cast N_0.symm (i 0)) (0 : Fin 3) * 1 ≤ (i 0).val ∧ (i 0).val < win0_2.index (Fin.cast N_0.symm (i 0)) (0 : Fin 3) * 1 + 1; omega
  | ⟨1, _⟩ => show win0_2.index (Fin.cast N_0.symm (i 0)) (1 : Fin 3) * 2 ≤ (i 1).val ∧ (i 1).val < win0_2.index (Fin.cast N_0.symm (i 0)) (1 : Fin 3) * 2 + 2; omega
  | ⟨2, _⟩ => show win0_2.index (Fin.cast N_0.symm (i 0)) (2 : Fin 3) * 2048 ≤ (i 2).val ∧ (i 2).val < win0_2.index (Fin.cast N_0.symm (i 0)) (2 : Fin 3) * 2048 + 2048; omega

theorem scores_final (c : Dev nD) :
    (dat0 (F := Ideal) V c).arrAt 2 cfg0.N = GraphAtt.scoreArr (V c main_arg2) (V c main_arg3) :=
  (dat0 (F := Ideal) V c).arrAt_eq_of_cover 2 (GraphAtt.scoreArr (V c main_arg2) (V c main_arg3))
    (fun t _ => flushed_eq V c t) cover

end Cert.KernelIdeal.ScoresValue

end
-- ==== Proof.Att.lean ====
import proofs.«138415_g19713899889134_cont_8to1_1390_9_alg».proof.Proof.Gen.KernelIdeal.Frame
import proofs.«138415_g19713899889134_cont_8to1_1390_9_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# The second launch: rows of the attention map

At grid point `(h, i)` the body reads the head's score table (two rows of 2048), the 256 × 2048 strips of the two
patterns that start at row `256 i`, and writes the strip of the result: with `e r q = exp (σ (f₁ (256 i + r) + f₂ q))`
each pattern strip `M` contributes `(e r q · M r q) · (½ / ∑ₖ e r k · M r k)`, and the two contributions are added.
The strips tile the array, so the array the launch leaves is `GraphAtt.attArr` of the score table and the patterns.
-/

set_option maxRecDepth 16384

noncomputable section

namespace Cert.KernelIdeal.AttValue

open Cert.KernelIdeal Cert.KernelIdeal.Gen Idealize.ShloMosaic Idealize.ShloMosaic.TcCoe Idealize.ShloMosaic.ValueIdx Idealize.SL.Sem
open Idealize.ShloMosaic.Tactic

/-! ## Layout operations of the body, read at an index -/

section Layout
variable {α : Type}

/-- A `[1, 1, a]` array cast to `[a]` reads, at `i`, the operand at `(0, 0, i)`. -/
theorem cast_11a_a {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- An `[a]` array cast to the column `[a, 1]` reads, at `(i, u)`, the operand at `i`. -/
theorem cast_a_a1 {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column at `p`. -/
theorem bcast_a1_ab {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The body's arithmetic, cut into its three kinds of step -/

/-- `exp (σ (f₁ r + f₂ q))` over the strip, from the loaded row pieces. -/
def affBlk (v2 : Vec Ideal S1x1x256 .f32) (v4 : Vec Ideal S1x1x2048 .f32) : FVec Ideal S256x2048 .f32 :=
  exp (logistic (addf
    (broadcastTo S256x2048 (shapeCast S256x1 (shapeCast S256 v2 shapeCasts_S1x1x256_S256) shapeCasts_S256_S256x1) broadcasts_S256x1_S256x2048)
    (broadcastTo S256x2048 (shapeCast S1x2048 (shapeCast S2048 v4 shapeCasts_S1x1x2048_S2048) shapeCasts_S2048_S1x2048) broadcasts_S1x2048_S256x2048)))

/-- A pattern strip weighted entry by entry. -/
def wBlk (e : FVec Ideal S256x2048 .f32) (v : Vec Ideal S1x256x2048 .f32) : FVec Ideal S256x2048 .f32 :=
  mulf e (shapeCast S256x2048 v shapeCasts_S1x256x2048_S256x2048)

/-- One half over each row's sum, spread back over the row. -/
def scaleBlk (w : FVec Ideal S256x2048 .f32) : FVec Ideal S256x2048 .f32 :=
  broadcastTo S256x2048
    (divf (broadcast S256x1 (Scalar.ofBits .f32 0x3F000000#32 : Ideal .f32))
      (shapeCast S256x1 (multiReduction .add [1] S256 w 0x00000000#32 reduces_S256x2048_S256 (.inl rfl) rfl) shapeCasts_S256_S256x1))
    broadcasts_S256x1_S256x2048

/-- The body's stored value is the sum of the two scaled weighted strips. -/
theorem pay_eq (v2 : Vec Ideal S1x1x256 .f32) (v4 : Vec Ideal S1x1x2048 .f32) (v13 v16 : Vec Ideal S1x256x2048 .f32) :
    k1_pay1 (F := Ideal) v2 v4 v13 v16
      = shapeCast S1x256x2048
          (addf (mulf (wBlk (affBlk v2 v4) v13) (scaleBlk (wBlk (affBlk v2 v4) v13)))
                (mulf (wBlk (affBlk v2 v4) v16) (scaleBlk (wBlk (affBlk v2 v4) v16))))
          shapeCasts_S256x2048_S1x256x2048 := rfl

theorem affBlk_apply (v2 : Vec Ideal S1x1x256 .f32) (v4 : Vec Ideal S1x1x2048 .f32) (r : Fin 256) (q : Fin 2048) :
    affBlk v2 v4 (ix2 r q) = Ideal.exp (Ideal.logistic (v2 (ix3 (0 : Fin 1) (0 : Fin 1) r) + v4 (ix3 (0 : Fin 1) (0 : Fin 1) q))) := by
  show Ideal.exp (Ideal.logistic (
      broadcastTo S256x2048 (shapeCast S256x1 (shapeCast S256 v2 shapeCasts_S1x1x256_S256) shapeCasts_S256_S256x1) broadcasts_S256x1_S256x2048 (ix2 r q)
      + broadcastTo S256x2048 (shapeCast S1x2048 (shapeCast S2048 v4 shapeCasts_S1x1x2048_S2048) shapeCasts_S2048_S1x2048) broadcasts_S1x2048_S256x2048 (ix2 r q))) = _
  rw [bcast_a1_ab, cast_a_a1, cast_11a_a, broadcastTo_1b_ab_apply, shapeCast_a_1a_apply, cast_11a_a]

theorem wBlk_apply (e : FVec Ideal S256x2048 .f32) (v : Vec Ideal S1x256x2048 .f32) (r : Fin 256) (q : Fin 2048) :
    wBlk e v (ix2 r q) = e (ix2 r q) * v (ix3 (0 : Fin 1) r q) := by
  show e (ix2 r q) * shapeCast S256x2048 v shapeCasts_S1x256x2048_S256x2048 (ix2 r q) = _
  rw [shapeCast_1ab_ab_apply]

/-- A row's sum: the lane reduction over the second axis, read at a row. -/
theorem rowsum_apply (w : FVec Ideal S256x2048 .f32) (h : S256x2048.Reduces [1] S256) (hφ : FKind.Formats .f32)
    (hacc : (0x00000000#32 : BitVec 32) = FKind.add.neutral .f32 hφ) (r : Fin 256) :
    multiReduction .add [1] S256 w 0x00000000#32 h hφ hacc (ix1 r) = ∑ k : Fin 2048, w (ix2 r k) :=
  (Ideal.multiReduction_add_single w 0x00000000#32 h hφ hacc (ix1 r)).trans
    (Finset.sum_congr rfl fun k _ => congrArg w (funext fun a => Fin.ext (by
      match a with
      | ⟨0, _⟩ => rfl
      | ⟨1, _⟩ => rfl)))

theorem scaleBlk_apply (w : FVec Ideal S256x2048 .f32) (r : Fin 256) (q : Fin 2048) :
    scaleBlk w (ix2 r q) = Ideal.div GraphAtt.cHalf (∑ k : Fin 2048, w (ix2 r k)) := by
  unfold scaleBlk
  rw [bcast_a1_ab]
  show Ideal.div GraphAtt.cHalf (shapeCast S256x1 (multiReduction .add [1] S256 w 0x00000000#32 reduces_S256x2048_S256 (.inl rfl) rfl) shapeCasts_S256_S256x1 (ix2 r (0 : Fin 1))) = _
  rw [cast_a_a1]
  exact congrArg (Ideal.div GraphAtt.cHalf) (rowsum_apply w reduces_S256x2048_S256 (.inl rfl) rfl r)

/-- THE BODY AT AN ENTRY of the strip. -/
theorem pay_apply (v2 : Vec Ideal S1x1x256 .f32) (v4 : Vec Ideal S1x1x2048 .f32) (v13 v16 : Vec Ideal S1x256x2048 .f32)
    (u : Fin 1) (r : Fin 256) (q : Fin 2048) :
    k1_pay1 (F := Ideal) v2 v4 v13 v16 (ix3 u r q)
      = (affBlk v2 v4 (ix2 r q) * v13 (ix3 (0 : Fin 1) r q)) * Ideal.div GraphAtt.cHalf (∑ k : Fin 2048, affBlk v2 v4 (ix2 r k) * v13 (ix3 (0 : Fin 1) r k))
        + (affBlk v2 v4 (ix2 r q) * v16 (ix3 (0 : Fin 1) r q)) * Ideal.div GraphAtt.cHalf (∑ k : Fin 2048, affBlk v2 v4 (ix2 r k) * v16 (ix3 (0 : Fin 1) r k)) := by
  rw [pay_eq, shapeCast_ab_1ab_apply]
  show wBlk (affBlk v2 v4) v13 (ix2 r q) * scaleBlk (wBlk (affBlk v2 v4) v13) (ix2 r q)
      + wBlk (affBlk v2 v4) v16 (ix2 r q) * scaleBlk (wBlk (affBlk v2 v4) v16) (ix2 r q) = _
  rw [scaleBlk_apply, scaleBlk_apply, wBlk_apply, wBlk_apply]
  simp only [wBlk_apply]

/-! ## The arrays the launch finds, the blocks of a point, and what the point writes back -/

variable (V : (c : Dev nD) → (b : Ref sig .tc) → Buf (Elt Ideal) ((c : Thread nD τ).loc b))

/-- The score table and the two patterns as the launch finds them. -/
abbrev farr (c : Dev nD) : Vec Ideal S8x2x2048 .f32 := V c main_v0
abbrev larr (c : Dev nD) : Vec Ideal S8x2048x2048 .f32 := V c main_arg0
abbrev garr (c : Dev nD) : Vec Ideal S8x2048x2048 .f32 := V c main_arg1

theorem hz3 : (![0, 0, 0] : Fin 3 → Nat) = fun _ => 0 := funext fun a => by fin_cases a <;> rfl

/-- The printed index maps over the 8 × 8 grid: the score window follows the head only, the pattern and result windows the
    head and the strip; the body's own offset into the score table is the strip's first row. -/
theorem idx_facts : ∀ t : Fin cfg1.N,
    win1_0.index t (0 : Fin 3) = (grid1.coords t 0).val ∧ win1_0.index t (1 : Fin 3) = 0 ∧ win1_0.index t (2 : Fin 3) = 0
    ∧ win1_1.index t (0 : Fin 3) = (grid1.coords t 0).val ∧ win1_1.index t (1 : Fin 3) = (grid1.coords t 1).val ∧ win1_1.index t (2 : Fin 3) = 0
    ∧ win1_2.index t (0 : Fin 3) = (grid1.coords t 0).val ∧ win1_2.index t (1 : Fin 3) = (grid1.coords t 1).val ∧ win1_2.index t (2 : Fin 3) = 0
    ∧ win1_3.index t (0 : Fin 3) = (grid1.coords t 0).val ∧ win1_3.index t (1 : Fin 3) = (grid1.coords t 1).val ∧ win1_3.index t (2 : Fin 3) = 0
    ∧ k1_off1 (grid1.coords t) (0 : Fin 3) = 0 ∧ k1_off1 (grid1.coords t) (1 : Fin 3) = 0
    ∧ k1_off1 (grid1.coords t) (2 : Fin 3) = (grid1.coords t 1).val * 256
    ∧ (grid1.coords t 0).val < 8 ∧ (grid1.coords t 1).val < 8 :=
  (by decide +kernel : ∀ t : Fin grid1.N, _)

/-- Every (head, strip) pair is some point's. -/
theorem idx_onto : ∀ (q0 : Fin 8) (q1 : Fin 8), ∃ t : Fin cfg1.N, win1_3.index t = ![q0.val, q1.val, 0] :=
  (by decide +kernel : ∀ (q0 : Fin 8) (q1 : Fin 8), ∃ t : Fin grid1.N, win1_3.index t = ![q0.val, q1.val, 0])

/-- The head of point `t`. -/
def hd (t : Fin cfg1.N) : Fin 8 := ⟨(grid1.coords t 0).val, (idx_facts t).2.2.2.2.2.2.2.2.2.2.2.2.2.2.2.1⟩
/-- Row `r` of point `t`'s strip, as a row of the array. -/
def rw_ (t : Fin cfg1.N) (r : Fin 256) : Fin 2048 :=
  ⟨(grid1.coords t 1).val * 256 + r.val, by have := (idx_facts t).2.2.2.2.2.2.2.2.2.2.2.2.2.2.2.2; have := r.isLt; omega⟩

/-- A pattern strip's entry is the array's at the strip's row. -/
theorem lblk_apply (c : Dev nD) (t : Fin cfg1.N) (u : Fin 1) (r : Fin 256) (q : Fin 2048) :
    iblk1 V c 1 t (ix3 u r q) = larr V c (ix3 (hd t) (rw_ t r) q) := by
  obtain ⟨-, -, -, e0, e1, e2, -⟩ := idx_facts t
  show V c main_arg0 (((cfg1.win 1).blk t).view.emb (ix3 u r q)) = V c main_arg0 (ix3 (hd t) (rw_ t r) q)
  refine congrArg _ (funext fun a => Fin.ext ?_)
  match a with
  | ⟨0, _⟩ => show win1_1.index t (0 : Fin 3) * 1 + 1 * u.val = (grid1.coords t 0).val; omega
  | ⟨1, _⟩ => show win1_1.index t (1 : Fin 3) * 256 + 1 * r.val = (grid1.coords t 1).val * 256 + r.val; omega
  | ⟨2, _⟩ => show win1_1.index t (2 : Fin 3) * 2048 + 1 * q.val = q.val; omega

theorem gblk_apply (c : Dev nD) (t : Fin cfg1.N) (u : Fin 1) (r : Fin 256) (q : Fin 2048) :
    iblk1 V c 2 t (ix3 u r q) = garr V c (ix3 (hd t) (rw_ t r) q) := by
  obtain ⟨-, -, -, -, -, -, e0, e1, e2, -⟩ := idx_facts t
  show V c main_arg1 (((cfg1.win 2).blk t).view.emb (ix3 u r q)) = V c main_arg1 (ix3 (hd t) (rw_ t r) q)
  refine congrArg _ (funext fun a => Fin.ext ?_)
  match a with
  | ⟨0, _⟩ => show win1_2.index t (0 : Fin 3) * 1 + 1 * u.val = (grid1.coords t 0).val; omega
  | ⟨1, _⟩ => show win1_2.index t (1 : Fin 3) * 256 + 1 * r.val = (grid1.coords t 1).val * 256 + r.val; omega
  | ⟨2, _⟩ => show win1_2.index t (2 : Fin 3) * 2048 + 1 * q.val = q.val; omega

/-- The body's first load: the strip's 256 first scores. -/
theorem frow_apply (c : Dev nD) (t : Fin cfg1.N) (u v : Fin 1) (r : Fin 256) :
    View.ld (iblk1 V c 0 t) (Rect.unit (s := S1x2x2048) (k1_off1 (grid1.coords t)) S1x1x256.size (k1_off1_inb (grid1.coords t))) (ix3 u v r)
      = farr V c (ix3 (hd t) (0 : Fin 2) (rw_ t r)) := by
  obtain ⟨e0, e1, e2, -, -, -, -, -, -, -, -, -, o0, o1, o2, -⟩ := idx_facts t
  show V c main_v0 (((cfg1.win 0).blk t).view.emb ((Rect.unit (s := S1x2x2048) (k1_off1 (grid1.coords t)) S1x1x256.size (k1_off1_inb (grid1.coords t))).emb (ix3 u v r)))
      = V c main_v0 (ix3 (hd t) (0 : Fin 2) (rw_ t r))
  refine congrArg _ (funext fun a => Fin.ext ?_)
  match a with
  | ⟨0, _⟩ => show win1_0.index t (0 : Fin 3) * 1 + 1 * (k1_off1 (grid1.coords t) (0 : Fin 3) + 1 * u.val) = (grid1.coords t 0).val; omega
  | ⟨1, _⟩ => show win1_0.index t (1 : Fin 3) * 2 + 1 * (k1_off1 (grid1.coords t) (1 : Fin 3) + 1 * v.val) = 0; omega
  | ⟨2, _⟩ => show win1_0.index t (2 : Fin 3) * 2048 + 1 * (k1_off1 (grid1.coords t) (2 : Fin 3) + 1 * r.val) = (grid1.coords t 1).val * 256 + r.val; omega

/-- The body's second load: the head's 2048 second scores. -/
theorem fcol_apply (c : Dev nD) (t : Fin cfg1.N) (u v : Fin 1) (q : Fin 2048) :
    View.ld (iblk1 V c 0 t) (Rect.unit (s := S1x2x2048) ![0, 1, 0] S1x1x2048.size inb_S1x2x2048_S1x1x2048_0_1_0) (ix3 u v q)
      = farr V c (ix3 (hd t) (1 : Fin 2) q) := by
  obtain ⟨e0, e1, e2, -⟩ := idx_facts t
  show V c main_v0 (((cfg1.win 0).blk t).view.emb ((Rect.unit (s := S1x2x2048) ![0, 1, 0] S1x1x2048.size inb_S1x2x2048_S1x1x2048_0_1_0).emb (ix3 u v q)))
      = V c main_v0 (ix3 (hd t) (1 : Fin 2) q)
  refine congrArg _ (funext fun a => Fin.ext ?_)
  match a with
  | ⟨0, _⟩ => show win1_0.index t (0 : Fin 3) * 1 + 1 * (0 + 1 * u.val) = (grid1.coords t 0).val; omega
  | ⟨1, _⟩ => show win1_0.index t (1 : Fin 3) * 2 + 1 * (1 + 1 * v.val) = 1; omega
  | ⟨2, _⟩ => show win1_0.index t (2 : Fin 3) * 2048 + 1 * (0 + 1 * q.val) = q.val; omega

/-- What the body's run leaves in the output buffer is its payload of the loaded blocks: the run's one store covers the
    buffer, and each load reads a staged block as it was fetched. -/
theorem out1_eq (c : Dev nD) (i : grid1.Coords) (arg2 : Memref sig .tc .vmem S1x2x2048 .f32) (harg2 : arg2.IsWhole) (arg3 : Memref sig .tc .vmem S1x256x2048 .f32) (harg3 : arg3.IsWhole) (arg4 : Memref sig .tc .vmem S1x256x2048 .f32) (harg4 : arg4.IsWhole) (arg5 : Memref sig .tc .vmem S1x256x2048 .f32) (harg5 : arg5.IsWhole)
    (x0 : Vec Ideal S1x2x2048 .f32) (x1 : Vec Ideal S1x256x2048 .f32) (x2 : Vec Ideal S1x256x2048 .f32) :
    out1_A_3 (F := Ideal) c i arg2 harg2 arg3 harg3 arg4 harg4 arg5 harg5 x0 x1 x2
      = k1_pay1 (F := Ideal) (View.ld x0 (Rect.unit (s := S1x2x2048) (k1_off1 i) S1x1x256.size (k1_off1_inb i)))
          (View.ld x0 (Rect.unit (s := S1x2x2048) ![0, 1, 0] S1x1x2048.size inb_S1x2x2048_S1x1x2048_0_1_0)) x1 x2 := by
  unfold out1_A_3
  rw [View.read_writes_eq_canon _ _ _ (cover1_A_3 c i arg2 harg2 arg3 harg3 arg4 harg4 arg5 harg5 x0 x1 x2)]
  unfold kernelRun1_A
  dsimp only
  sl_unfold_words
  rw [View.canon_unit_zero hz3]
  simp only [View.readAt_eq_ld, harg2.read_unread, harg3.read_unread, harg4.read_unread, View.ld_unit_zero (S := S1x256x2048) hz3]

/-- The result's entry in point `t`'s strip is the array's at the strip's row. -/
theorem oemb (t : Fin cfg1.N) (u : Fin 1) (r : Fin 256) (q : Fin 2048) :
    ((cfg1.win 3).blk t).view.emb (ix3 u r q) = ix3 (hd t) (rw_ t r) q := by
  obtain ⟨-, -, -, -, -, -, -, -, -, e0, e1, e2, -⟩ := idx_facts t
  refine funext fun a => Fin.ext ?_
  match a with
  | ⟨0, _⟩ => show win1_3.index t (0 : Fin 3) * 1 + 1 * u.val = (grid1.coords t 0).val; omega
  | ⟨1, _⟩ => show win1_3.index t (1 : Fin 3) * 256 + 1 * r.val = (grid1.coords t 1).val * 256 + r.val; omega
  | ⟨2, _⟩ => show win1_3.index t (2 : Fin 3) * 2048 + 1 * q.val = q.val; omega

/-- WHAT POINT `t` WRITES BACK is its strip of `GraphAtt.attArr` of the arrays the launch finds. -/
theorem flushed_eq (c : Dev nD) (t : Fin cfg1.N) :
    (dat1 (F := Ideal) V c).flushed 3 t
      = ((cfg1.win 3).blk t).view.read (Elt Ideal) (GraphAtt.attArr (farr V c) (larr V c) (garr V c)) := by
  show (cfg1.win 3).cut (grid1.coords t) ((dat1 (F := Ideal) V c).after 3 t) = _
  rw [after1_3]
  unfold outsAt1
  rw [out1_eq]
  funext y
  obtain ⟨u, r, q, rfl⟩ : ∃ (u : Fin 1) (r : Fin 256) (q : Fin 2048), y = ix3 u r q := ⟨y 0, y 1, y 2, eq_ix3 y⟩
  show k1_pay1 (F := Ideal) _ _ _ _ (ix3 u r q)
      = GraphAtt.attArr (farr V c) (larr V c) (garr V c) (((cfg1.win 3).blk t).view.emb (ix3 u r q))
  rw [pay_apply, oemb]
  show _ = GraphAtt.kpartF (larr V c) (farr V c) (hd t) (rw_ t r) q + GraphAtt.kpartF (garr V c) (farr V c) (hd t) (rw_ t r) q
  unfold GraphAtt.kpartF GraphAtt.affF
  simp only [affBlk_apply, lblk_apply, gblk_apply]
  rw [frow_apply V c t (0 : Fin 1) (0 : Fin 1) r]
  simp only [fcol_apply V c t (0 : Fin 1) (0 : Fin 1)]

/-- An index of the array is in point `t`'s strip iff each coordinate is in the strip's range on its axis. -/
theorem mem_blk (t : Fin cfg1.N) (i : S8x2048x2048.Idx) :
    i ∈ ((cfg1.win 3).blk t).view.set ↔ ∀ a : Fin 3, win1_3.index t a * S1x256x2048.size a ≤ (i a).val ∧ (i a).val < win1_3.index t a * S1x256x2048.size a + S1x256x2048.size a := by
  show i ∈ ((View.whole main_v1).slice (win1_3.rect t)).set ↔ _
  rw [View.set_slice_whole, Rect.mem_set_unit]
  exact Iff.rfl

/-- The strips tile the array: entry `(h, n, q)` is in the strip of head `h` that holds row `n`. -/
theorem cover (i : S8x2048x2048.Idx) : ∃ t : Fin cfg1.N, (cfg1.win 3).flush t = true ∧ i ∈ ((cfg1.win 3).blk t).view.set := by
  have h0 : (i 0).val < 8 := (i 0).isLt
  have h1 : (i 1).val < 2048 := (i 1).isLt
  have h2 : (i 2).val < 2048 := (i 2).isLt
  obtain ⟨t, ht⟩ := idx_onto ⟨(i 0).val, h0⟩ ⟨(i 1).val / 256, by omega⟩
  have q0 : win1_3.index t (0 : Fin 3) = (i 0).val := congrFun ht 0
  have q1 : win1_3.index t (1 : Fin 3) = (i 1).val / 256 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 256 ≤ (i 1).val ∧ (i 1).val < win1_3.index t (1 : Fin 3) * 256 + 256; omega
  | ⟨2, _⟩ => show win1_3.index t (2 : Fin 3) * 2048 ≤ (i 2).val ∧ (i 2).val < win1_3.index t (2 : Fin 3) * 2048 + 2048; omega

/-- THE ARRAY the launch leaves. -/
theorem att_final (c : Dev nD) :
    (dat1 (F := Ideal) V c).arrAt 3 cfg1.N = GraphAtt.attArr (V c main_v0) (V c main_arg0) (V c main_arg1) :=
  (dat1 (F := Ideal) V c).arrAt_eq_of_cover 3 (GraphAtt.attArr (farr V c) (larr V c) (garr V c))
    (fun t _ => flushed_eq V c t) cover

end Cert.KernelIdeal.AttValue

end
-- ==== Proof.KValue.lean ====
import proofs.«138415_g19713899889134_cont_8to1_1390_9_alg».proof.Proof.KRun
import proofs.«138415_g19713899889134_cont_8to1_1390_9_alg».proof.Proof.Scores
import proofs.«138415_g19713899889134_cont_8to1_1390_9_alg».proof.Proof.Att

/-!
# The kernel's result

Between the two launches the score table holds `GraphAtt.scoreArr` of the features and score vectors (the first launch
wrote it; nothing else did) and the two patterns are as launched (the first launch does not touch them), so the array
the second launch leaves is `GraphAtt.kerOut` of the four arguments.
-/

set_option maxRecDepth 16384

noncomputable section

namespace Cert.KernelIdeal.KValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The score table between the launches. -/
theorem mid_scores (c : Dev nD) :
    V1 m ρ c main_v0 = GraphAtt.scoreArr (m ((c.tc : Thread nD τ).loc main_arg2)) (m ((c.tc : Thread nD τ).loc main_arg3)) :=
  (W1_arr m ρ c 2).trans (ScoresValue.scores_final (V0 m ρ) c)

/-- The patterns between the launches are the launch memory's. -/
theorem mid_local (c : Dev nD) : V1 m ρ c main_arg0 = m ((c.tc : Thread nD τ).loc main_arg0) :=
  W1_of_ne m ρ c main_arg0 (by decide)
theorem mid_long (c : Dev nD) : V1 m ρ c main_arg1 = m ((c.tc : Thread nD τ).loc main_arg1) :=
  W1_of_ne m ρ c main_arg1 (by decide)

/-- The array the second launch leaves, as a function of the four arguments. -/
theorem result_eq (c : Dev nD) :
    (dat1 (F := Ideal) (V1 m ρ) c).arrAt 3 cfg1.N
      = GraphAtt.kerOut (m ((c.tc : Thread nD τ).loc main_arg0)) (m ((c.tc : Thread nD τ).loc main_arg1))
          (m ((c.tc : Thread nD τ).loc main_arg2)) (m ((c.tc : Thread nD τ).loc main_arg3)) := by
  refine (AttValue.att_final (V1 m ρ) c).trans ?_
  rw [mid_scores m ρ c, mid_local m ρ c, mid_long m ρ c]
  rfl

/-- Every weakly fair execution of the kernel's @main terminates, nothing faulting, with the result array at
    `GraphAtt.kerOut` of the launch contents of the arguments, and the arguments unchanged. -/
theorem run : θ_run defs (onTc (τ := τ) (main (F := Ideal))) ⟨m, fun _ => 0, ρ⟩ (fun r => ∀ c : Dev nD,
      r.2.mem ((c.tc : Thread nD τ).loc main_v1)
        = GraphAtt.kerOut (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (ValueRun.run_value m ρ)

end Cert.KernelIdeal.KValue

end
-- ==== Proof.lean ====
/-
  Two-pattern graph attention, the kernel against its jnp reference, over the extended reals.

  Both programs compute, per head, the affinity `σ(f₁ i + f₂ j)` of every node pair from two scores per node, and for each
  of two 0/1 patterns a softmax of the affinity over the stored entries of a row; the result is the average of the two
  softmaxes. The reference masks with a large negative filler, subtracts the row maximum and divides by the row sum; the
  kernel skips the shift (the exponent is in (0, 1)) and multiplies by one half over the row sum. On patterns with entries
  in {0, 1} and a stored entry in every row all intermediate values are finite reals, the shift cancels
  (`exp (a - m) / ∑ exp (aₖ - m) = exp a / ∑ exp aₖ` for any real `m`) and the two results agree entry by entry.

  The kernel runs two launches: the first leaves the score table (`Proof/Scores.lean`), the second the rows of the
  result (`Proof/Att.lean`); `Proof/KValue.lean` chains them into the run's post. The reference's result is read one
  operation at a time in `Proof/RefRead.lean`; `Proof/PreRead.lean` reads the precondition; `Proof/Algebra.lean` is the
  identity between the two whole-array functions of `Proof/Spec.lean`.
-/
import proofs.«138415_g19713899889134_cont_8to1_1390_9_alg».proof.Defs
import proofs.«138415_g19713899889134_cont_8to1_1390_9_alg».proof.Proof.Gen.Kernel
import proofs.«138415_g19713899889134_cont_8to1_1390_9_alg».proof.Proof.Gen.Kernel.Skeleton
import proofs.«138415_g19713899889134_cont_8to1_1390_9_alg».proof.Proof.Gen.Kernel.Launch
import proofs.«138415_g19713899889134_cont_8to1_1390_9_alg».proof.Proof.Gen.Kernel.Points
import proofs.«138415_g19713899889134_cont_8to1_1390_9_alg».proof.Proof.Gen.Kernel.Frame
import proofs.«138415_g19713899889134_cont_8to1_1390_9_alg».proof.Proof.Gen.KernelIdeal
import proofs.«138415_g19713899889134_cont_8to1_1390_9_alg».proof.Proof.Gen.KernelIdeal.Skeleton
import proofs.«138415_g19713899889134_cont_8to1_1390_9_alg».proof.Proof.Gen.KernelIdeal.Launch
import proofs.«138415_g19713899889134_cont_8to1_1390_9_alg».proof.Proof.Gen.KernelIdeal.Points
import proofs.«138415_g19713899889134_cont_8to1_1390_9_alg».proof.Proof.Gen.KernelIdeal.Frame
import proofs.«138415_g19713899889134_cont_8to1_1390_9_alg».proof.Proof.Gen.ReferenceIdeal
import proofs.«138415_g19713899889134_cont_8to1_1390_9_alg».proof.Proof.Gen.ReferenceIdeal.Run
import proofs.«138415_g19713899889134_cont_8to1_1390_9_alg».proof.Proof.Gen.ReferenceIdeal.Read
import proofs.«138415_g19713899889134_cont_8to1_1390_9_alg».proof.Proof.Gen.Pre_finite_inputs
import proofs.«138415_g19713899889134_cont_8to1_1390_9_alg».proof.Proof.Spec
import proofs.«138415_g19713899889134_cont_8to1_1390_9_alg».proof.Proof.Algebra
import proofs.«138415_g19713899889134_cont_8to1_1390_9_alg».proof.Proof.PreRead
import proofs.«138415_g19713899889134_cont_8to1_1390_9_alg».proof.Proof.RefRead
import proofs.«138415_g19713899889134_cont_8to1_1390_9_alg».proof.Proof.KValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- From memories that agree on the four arguments and satisfy the precondition, the kernel's result array is
    `GraphAtt.kerOut` of the arguments, the reference's is `GraphAtt.refOut` of the same arguments, and on admissible
    inputs the two functions are equal. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, (hagree c).1, (hagree c).2.1, (hagree c).2.2.1, (hagree c).2.2.2,
    GraphAtt.ref_val_eq]
  exact GraphAtt.refOut_eq_kerOut (GraphAtt.admissible_of_pre _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
